-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256x256 : Shape := ⟨4, ![4, 256, 256, 256]⟩
abbrev S256 : Shape := ⟨1, ![256]⟩
abbrev S_ : Shape := ⟨0, ![]⟩

class Facts : Prop where
  bcast_S_S4x256x256x256 : S_.BroadcastsInDim S4x256x256x256 (![] : Fin 0 → Fin S4x256x256x256.rank)
  reducesTo_S4x256x256x256_S_d0_1_2_3 : S4x256x256x256.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn_part1 {F : FTy → Type} [FloatOps F] (main_arg3 : IVec S256 32) (main_v15 : IVec S_ 1) (main_c_5 : IVec S_ 32) : IVec S_ 1 :=
  let main_v16 : IVec S256 32 := broadcastInDim S256 ![] bcast_S_S256 main_c_5
  let main_v17 : IVec S256 1 := cmpi .sge main_arg3 main_v16
  let main_c_6 : IVec S_ 32 := constantI S_ 32 65536#32
  let main_v18 : IVec S256 32 := broadcastInDim S256 ![] bcast_S_S256 main_c_6
  let main_v19 : IVec S256 1 := cmpi .slt main_arg3 main_v18
  let main_v20 : IVec S256 1 := andi main_v17 main_v19
  let main_c_7 : IVec S_ 1 := constantI S_ 1 1#1
  let main_v21 : IVec S_ 1 := (fun x v => Host.reduce IntOp.andi x v reducesTo_S256_S_d0 h_S_) main_v20 main_c_7
  let main_v22 : IVec S_ 1 := andi main_v15 main_v21
  main_v22

def fn {F : FTy → Type} [FloatOps F] (main_arg0 : FVec F S4x256x256x256 .f32) (main_arg1 : FVec F S4x256x256x256 .f32) (main_arg2 : IVec S256 32) (main_arg3 : IVec S256 32) : IVec S_ 1 :=
  let main_v0 : FVec F S4x256x256x256 .f32 := Host.absf main_arg0
  let main_cst : FVec F S_ .f32 := constant S_ .f32 0x7F800000#32
  let main_v1 : FVec F S4x256x256x256 .f32 := broadcastInDim S4x256x256x256 ![] bcast_S_S4x256x256x256 main_cst
  let main_v2 : IVec S4x256x256x256 1 := cmpf .olt main_v0 main_v1
  let main_c : IVec S_ 1 := constantI S_ 1 1#1
  let main_v3 : IVec S_ 1 := (fun x v => Host.reduce IntOp.andi x v reducesTo_S4x256x256x256_S_d0_1_2_3 h_S_) main_v2 main_c
  let main_v4 : FVec F S4x256x256x256 .f32 := Host.absf main_arg1
  let main_cst_0 : FVec F S_ .f32 := constant S_ .f32 0x7F800000#32
  let main_v5 : FVec F S4x256x256x256 .f32 := broadcastInDim S4x256x256x256 ![] bcast_S_S4x256x256x256 main_cst_0
  let main_v6 : IVec S4x256x256x256 1 := cmpf .olt main_v4 main_v5
  let main_c_1 : IVec S_ 1 := constantI S_ 1 1#1
  let main_v7 : IVec S_ 1 := (fun x v => Host.reduce IntOp.andi x v reducesTo_S4x256x256x256_S_d0_1_2_3 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 32 := constantI S_ 32 65536#32
  let main_v11 : IVec S256 32 := broadcastInDim S256 ![] bcast_S_S256 main_c_3
  let main_v12 : IVec S256 1 := cmpi .slt main_arg2 main_v11
  let main_v13 : IVec S256 1 := andi main_v10 main_v12
  let main_c_4 : IVec S_ 1 := constantI S_ 1 1#1
  let main_v14 : IVec S_ 1 := (fun x v => Host.reduce IntOp.andi x v reducesTo_S256_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S4x256x256x256 : Shape := ⟨4, ![4, 256, 256, 256]⟩
abbrev S256 : Shape := ⟨1, ![256]⟩
abbrev S4x256x65536 : Shape := ⟨3, ![4, 256, 65536]⟩
abbrev S1x1x1 : Shape := ⟨3, ![1, 1, 1]⟩
abbrev S4x256x1 : Shape := ⟨3, ![4, 256, 1]⟩
abbrev S4 : Shape := ⟨1, ![4]⟩
abbrev S1 : Shape := ⟨1, ![1]⟩
abbrev S_ : Shape := ⟨0, ![]⟩
abbrev S4x1 : Shape := ⟨2, ![4, 1]⟩
abbrev S4x1x1 : Shape := ⟨3, ![4, 1, 1]⟩
abbrev S1x1 : Shape := ⟨2, ![1, 1]⟩

abbrev nBuf : Space → Nat
  | .hbm => 6
  | .vmem => 6
  | .smem => 2
  | _ => 0

abbrev bufTy : (tb : Table) → Fin (tcTables nBuf tb) → BufTy
  | .hbm, ⟨0, _⟩ => ⟨S4x256x256x256, .f32⟩
  | .hbm, ⟨1, _⟩ => ⟨S4x256x256x256, .f32⟩
  | .hbm, ⟨2, _⟩ => ⟨S4x256x65536, .f32⟩
  | .hbm, ⟨3, _⟩ => ⟨S4x256x65536, .f32⟩
  | .hbm, ⟨4, _⟩ => ⟨S1x1x1, .f32⟩
  | .hbm, ⟨5, _⟩ => ⟨S_, .f32⟩
  | .local _ .vmem, ⟨0, _⟩ => ⟨S1x1x1, .f32⟩
  | .local _ .vmem, ⟨1, _⟩ => ⟨S4x256x1, .f32⟩
  | .local _ .vmem, ⟨2, _⟩ => ⟨S4x256x1, .f32⟩
  | .local _ .vmem, ⟨3, _⟩ => ⟨S4x256x1, .f32⟩
  | .local _ .vmem, ⟨4, _⟩ => ⟨S4x256x1, .f32⟩
  | .local _ .vmem, ⟨5, _⟩ => ⟨S1x1x1, .f32⟩
  | .local _ .smem, ⟨0, _⟩ => ⟨S256, .i32⟩
  | .local _ .smem, ⟨1, _⟩ => ⟨S256, .i32⟩
  | _, _ => ⟨S4x256x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch5 : Ref sig .tc := ⟨.vmem, 5, rfl⟩
abbrev cc0_sem0_0 : DmaSem sig := 0

abbrev nD : Nat := 1
abbrev τ : Topo := Topo.v7x

variable {F : FTy → Type} [FloatOps F]

abbrev grid0 : Pipeline.Grid := ⟨1, ![256], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_off2 (v4 : BitVec 32) : Fin 3 → Nat :=
  let c0_i32_2 : BitVec 32 := 0#32
  let c0_i32_3 : BitVec 32 := 0#32
  ![0, 0, v4.toNat]

def k0_off3 (v6 : BitVec 32) : Fin 3 → Nat :=
  let c0_i32_4 : BitVec 32 := 0#32
  let c0_i32_5 : BitVec 32 := 0#32
  ![0, 0, v6.toNat]

def k0_chk2 (v6 : BitVec 32) : Prop :=
  (∀ a, (k0_off3 v6) a + S4x256x1.size a ≤ S4x256x65536.size a)
instance k0_chk2.dec : ∀ (v6 : BitVec 32), Decidable (k0_chk2 v6) := fun v6 => decidable_of_iff' _ (Iff.of_eq (k0_chk2.eq_1 v6))
theorem k0_off3_inb : ∀ (v6 : BitVec 32) (k0_hw2 : k0_chk2 v6), ∀ a, (k0_off3 v6) a + S4x256x1.size a ≤ S4x256x65536.size a := fun v6 k0_hw2 => k0_hw2

def k0_off4 (v4 : BitVec 32) : Fin 3 → Nat :=
  let c0_i32_6 : BitVec 32 := 0#32
  let c0_i32_7 : BitVec 32 := 0#32
  ![0, 0, v4.toNat]

def k0_chk1 (v4 : BitVec 32) : Prop :=
  (∀ a, (k0_off2 v4) a + S4x256x1.size a ≤ S4x256x65536.size a) ∧
  (∀ a, (k0_off4 v4) a + S4x256x1.size a ≤ S4x256x65536.size a)
instance k0_chk1.dec : ∀ (v4 : BitVec 32), Decidable (k0_chk1 v4) := fun v4 => decidable_of_iff' _ (Iff.of_eq (k0_chk1.eq_1 v4))
theorem k0_off2_inb : ∀ (v4 : BitVec 32) (k0_hw1 : k0_chk1 v4), ∀ a, (k0_off2 v4) a + S4x256x1.size a ≤ S4x256x65536.size a := fun v4 k0_hw1 => k0_hw1.1
theorem k0_off4_inb : ∀ (v4 : BitVec 32) (k0_hw1 : k0_chk1 v4), ∀ a, (k0_off4 v4) a + S4x256x1.size a ≤ S4x256x65536.size a := fun v4 k0_hw1 => k0_hw1.2

def k0_cond2 (i : grid0.Coords) : BitVec 1 :=
  let arg0 : BitVec 32 := BitVec.ofNat 32 (i 0).val
  let c255_i32 : BitVec 32 := 255#32
  let v74 : BitVec 1 := Scalar.cmpi .eq arg0 c255_i32
  let v75 : BitVec 32 := Scalar.extui v74
  let c0_i32_47 : BitVec 32 := 0#32
  let v76 : BitVec 1 := Scalar.cmpi .ne v75 c0_i32_47
  v76

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

class Facts₀ : Prop where
  shapeCasts_S4x256x256x256_S4x256x65536 : S4x256x256x256.ShapeCasts S4x256x65536
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  numel1_S1 : S1.numel = 1
  inb_S4_S1_0 : ∀ a, (![0] : Fin 1 → Nat) a + S1.size a ≤ S4.size a
  squeezes_S1_S_ : S1.Squeezes S_
  inb_S4_S1_1 : ∀ a, (![1] : Fin 1 → Nat) a + S1.size a ≤ S4.size a
  inb_S4_S1_2 : ∀ a, (![2] : Fin 1 → Nat) a + S1.size a ≤ S4.size a
  inb_S4_S1_3 : ∀ a, (![3] : Fin 1 → Nat) a + S1.size a ≤ S4.size a
  inb_S4x256x1_S4x256x1_0_0_0 : ∀ a, (![0, 0, 0] : Fin 3 → Nat) a + S4x256x1.size a ≤ S4x256x1.size a
  h_S4x256x1 : 0 < S4x256x1.numel
  reduces_S4x256x1_S4x1 : S4x256x1.Reduces [1] S4x1
  shapeCasts_S4x1_S4x1x1 : S4x1.ShapeCasts S4x1x1
  reduces_S4x1x1_S1x1 : S4x1x1.Reduces [0] S1x1
  shapeCasts_S1x1_S1x1x1 : S1x1.ShapeCasts S1x1x1
  shapeCasts_S1x1x1_S_ : S1x1x1.ShapeCasts S_
  hcc0_scratch4 : 1 + S4.numel ≤ 5
  hrank0 : 0 < grid0.rank
  k0_off1_inb : ∀ i : grid0.Coords, ∀ a, (k0_off1 i) a + S1.size a ≤ S256.size a
  hstage0_0 : ∀ j, (stage0_0 j).IsWhole
  nbuf0_0 : grid0.bufCount reads0_0 true = 1
  hreads0_0 : ∀ i i' : grid0.Coords, (∀ a, reads0_0 a = true → i a = i' a) → cc0_transform_2 i = cc0_transform_2 i'
  hinb0_0 : ∀ (i : grid0.Coords) a, (cc0_transform_2 i a + 1) * S1x1x1.size a ≤ S1x1x1.size a
  hwx0_0 : ∀ i : grid0.Coords, EltTy.bits .f32 = 32 ∨ (Rect.block (s := S1x1x1) S1x1x1.size (cc0_transform_2 i) (hinb0_0 i)).WholeWords (EltTy.packing .f32)

variable [Facts₀]

abbrev cc0_scratch4 : DmaSems sig S4 := SemArray.consecutive 1 S4 hcc0_scratch4

abbrev spec0_0 : Pipeline.WinSpec sig grid0.rank :=
  Pipeline.WinSpec.ofSpec (Memref.whole main_v2) S1x1x1.size reads0_0 true true 1 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_2 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev idle0 : Fin 1 → grid0.Coords → Bool := fun | 0 => fun i => !(k0_cond2 i == 1#1) | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S4x256x256x256 : Shape := ⟨4, ![4, 256, 256, 256]⟩
abbrev S256 : Shape := ⟨1, ![256]⟩
abbrev S4x256x65536 : Shape := ⟨3, ![4, 256, 65536]⟩
abbrev S_ : Shape := ⟨0, ![]⟩
abbrev S256x1 : Shape := ⟨2, ![256, 1]⟩
abbrev S4x256x256 : Shape := ⟨3, ![4, 256, 256]⟩
abbrev S4x256 : Shape := ⟨2, ![4, 256]⟩

abbrev nBuf : Space → Nat
  | .hbm => 80
  | .vmem => 0
  | .smem => 0
  | _ => 0

abbrev bufTy : (tb : Table) → Fin (tcTables nBuf tb) → BufTy
  | .hbm, ⟨0, _⟩ => ⟨S4x256x256x256, .f32⟩
  | .hbm, ⟨1, _⟩ => ⟨S4x256x256x256, .f32⟩
  | .hbm, ⟨2, _⟩ => ⟨S256, .i32⟩
  | .hbm, ⟨3, _⟩ => ⟨S256, .i32⟩
  | .hbm, ⟨4, _⟩ => ⟨S4x256x65536, .f32⟩
  | .hbm, ⟨5, _⟩ => ⟨S4x256x65536, .f32⟩
  | .hbm, ⟨6, _⟩ => ⟨S_, .i32⟩
  | .hbm, ⟨7, _⟩ => ⟨S256, .i32⟩
  | .hbm, ⟨8, _⟩ => ⟨S256, .i1⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S256x1, .i32⟩
  | .hbm, ⟨14, _⟩ => ⟨S4x256x256, .f32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S256, .i32⟩
  | .hbm, ⟨22, _⟩ => ⟨S256x1, .i32⟩
  | .hbm, ⟨23, _⟩ => ⟨S4x256x256, .f32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S4x256x256, .f32⟩
  | .hbm, ⟨33, _⟩ => ⟨S_, .i32⟩
  | .hbm, ⟨34, _⟩ => ⟨S256, .i32⟩
  | .hbm, ⟨35, _⟩ => ⟨S256, .i1⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S256x1, .i32⟩
  | .hbm, ⟨41, _⟩ => ⟨S4x256x256, .f32⟩
  | .hbm, ⟨42, _⟩ => ⟨S4x256x256, .f32⟩
  | .hbm, ⟨43, _⟩ => ⟨S_, .f32⟩
  | .hbm, ⟨44, _⟩ => ⟨S4x256, .f32⟩
  | .hbm, ⟨45, _⟩ => ⟨S4x256x256, .f32⟩
  | .hbm, ⟨46, _⟩ => ⟨S_, .f32⟩
  | .hbm, ⟨47, _⟩ => ⟨S4x256, .f32⟩
  | .hbm, ⟨48, _⟩ => ⟨S4x256, .f32⟩
  | .hbm, ⟨49, _⟩ => ⟨S4x256x256, .f32⟩
  | .hbm, ⟨50, _⟩ => ⟨S_, .f32⟩
  | .hbm, ⟨51, _⟩ => ⟨S4x256, .f32⟩
  | .hbm, ⟨52, _⟩ => ⟨S4x256, .f32⟩
  | .hbm, ⟨53, _⟩ => ⟨S4x256, .f32⟩
  | .hbm, ⟨54, _⟩ => ⟨S_, .f32⟩
  | .hbm, ⟨55, _⟩ => ⟨S4x256, .f32⟩
  | .hbm, ⟨56, _⟩ => ⟨S4x256, .f32⟩
  | .hbm, ⟨57, _⟩ => ⟨S4x256, .f32⟩
  | .hbm, ⟨58, _⟩ => ⟨S4x256x256, .f32⟩
  | .hbm, ⟨59, _⟩ => ⟨S_, .f32⟩
  | .hbm, ⟨60, _⟩ => ⟨S4x256, .f32⟩
  | .hbm, ⟨61, _⟩ => ⟨S4x256x256, .f32⟩
  | .hbm, ⟨62, _⟩ => ⟨S_, .f32⟩
  | .hbm, ⟨63, _⟩ => ⟨S4x256, .f32⟩
  | .hbm, ⟨64, _⟩ => ⟨S4x256, .f32⟩
  | .hbm, ⟨65, _⟩ => ⟨S4x256x256, .f32⟩
  | .hbm, ⟨66, _⟩ => ⟨S_, .f32⟩
  | .hbm, ⟨67, _⟩ => ⟨S4x256, .f32⟩
  | .hbm, ⟨68, _⟩ => ⟨S4x256, .f32⟩
  | .hbm, ⟨69, _⟩ => ⟨S4x256, .f32⟩
  | .hbm, ⟨70, _⟩ => ⟨S_, .f32⟩
  | .hbm, ⟨71, _⟩ => ⟨S4x256, .f32⟩
  | .hbm, ⟨72, _⟩ => ⟨S4x256, .f32⟩
  | .hbm, ⟨73, _⟩ => ⟨S4x256, .f32⟩
  | .hbm, ⟨74, _⟩ => ⟨S4x256, .f32⟩
  | .hbm, ⟨75, _⟩ => ⟨S4x256, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S4x256x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_v32 : Ref sig .tc := ⟨.hbm, 48, rfl⟩
abbrev main_call1_v0 : Ref sig .tc := ⟨.hbm, 49, rfl⟩
abbrev main_call1_cst : Ref sig .tc := ⟨.hbm, 50, rfl⟩
abbrev main_call1_v1 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_call2_v0 : Ref sig .tc := ⟨.hbm, 61, rfl⟩
abbrev main_call2_cst : Ref sig .tc := ⟨.hbm, 62, rfl⟩
abbrev main_call2_v1 : Ref sig .tc := ⟨.hbm, 63, rfl⟩
abbrev main_v40 : Ref sig .tc := ⟨.hbm, 64, rfl⟩
abbrev main_call3_v0 : Ref sig .tc := ⟨.hbm, 65, rfl⟩
abbrev main_call3_cst : Ref sig .tc := ⟨.hbm, 66, rfl⟩
abbrev main_call3_v1 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_cst_11 : Ref sig .tc := ⟨.hbm, 78, rfl⟩
abbrev main_v49 : Ref sig .tc := ⟨.hbm, 79, rfl⟩

abbrev nD : Nat := 1
abbrev τ : Topo := Topo.v7x

variable {F : FTy → Type} [FloatOps F]

class Facts₀ : Prop where
  shapeCasts_S4x256x256x256_S4x256x65536 : S4x256x256x256.ShapeCasts S4x256x65536
  bcast_S_S256 : S_.BroadcastsInDim S256 (![] : Fin 0 → Fin S256.rank)
  bcast_S256_S256x1_0 : S256.BroadcastsInDim S256x1 (![0] : Fin 1 → Fin S256x1.rank)
  reducesTo_S4x256x256_S4x256_d1 : S4x256x256.ReducesTo [1] S4x256
  h_S_ : 0 < S_.numel
  bcast_S_S4x256 : S_.BroadcastsInDim S4x256 (![] : Fin 0 → Fin S4x256.rank)
  reducesTo_S4x256_S_d0_1 : S4x256.ReducesTo [0, 1] S_
  gather_S4x256x65536_S256x1_S4x256x256_01_2_n_n_2_1_42561_wf : GatherDims.WF S4x256x65536 S256x1 S4x256x256 [0, 1] [2] [] [2] [] 1 ![4, 256, 1]

variable [Facts₀]

def gather_S4x256x65536_S256x1_S4x256x256_01_2_n_n_2_1_42561 : GatherDims S4x256x65536 S256x1 S4x256x256 where
  offsetDims := [0, 1]
  collapsedSliceDims := [2]
  operandBatchingDims := []
  startIndicesBatchingDims := []
  startIndexMap := [2]
  indexVectorDim := 1
  sliceSizes := ![4, 256, 1]
  wf := gather_S4x256x65536_S256x1_S4x256x256_01_2_n_n_2_1_42561_wf

class Facts : Prop extends Facts₀ where

variable [Facts]
-- ==== Proof.Spec.lean ====
import Idealize.ShloMosaic.PureOps.Ideal
import Idealize.ShloMosaic.Lib.ValueIdx

/-!
# The function both programs compute

Over the two arrays flattened to `[4, 256, 65536]` (batch, channel, pixel) and two tables of 256 pixel positions:
for sample `n` and batch row `b`, the cosine similarity over the channel axis between the pixel columns
`X[b, :, P n]` and `X[b, :, Q n]` — the dot product over `max (‖·‖ ‖·‖) eps` — is formed for each array, and the result
is the mean over the 4 · 256 pairs `(b, n)` of the absolute difference of the two similarities.
-/

noncomputable section

namespace Cert.Proof.Spec

open Idealize.ShloMosaic ValueIdx

/-- The flattened arrays' shape and the tables' shape. -/
abbrev SF : Shape := ⟨3, ![4, 256, 65536]⟩
abbrev ST : Shape := ⟨1, ![256]⟩

/-- The pixel position a table word names: the word read as a natural number (reduced into range, so that the
    function is total; under `InRange` the reduction changes nothing). -/
def pos (w : BitVec 32) : Fin 65536 := ⟨w.toNat % 65536, Nat.mod_lt _ (by norm_num)⟩

/-- Every word of a table is a pixel position. -/
def InRange (I : ST.Idx → BitVec 32) : Prop := ∀ n : Fin 256, (I (ix1 n)).toNat < 65536

theorem pos_val_of_lt {w : BitVec 32} (h : w.toNat < 65536) : (pos w).val = w.toNat := Nat.mod_eq_of_lt h

/-- The channel-axis dot product of two pixel columns of batch row `b`. -/
def dot3 (X : SF.Idx → EReal) (b : Fin 4) (p q : Fin 65536) : EReal :=
  ∑ ch : Fin 256, X (ix3 b ch p) * X (ix3 b ch q)

/-- `eps`, the f32 nearest `1e-8`, and the number of pairs, `1024`. -/
def epsV : EReal := Ideal.ofBits .f32 0x322BCC77#32
def cntV : EReal := Ideal.ofBits .f32 0x44800000#32

/-- The cosine similarity of the columns at `p` and `q`. -/
def cosv (X : SF.Idx → EReal) (b : Fin 4) (p q : Fin 65536) : EReal :=
  Ideal.div (dot3 X b p q) (max (Ideal.sqrt (dot3 X b p p) * Ideal.sqrt (dot3 X b q q)) epsV)

/-- One pair's contribution: the absolute difference of the two arrays' similarities. -/
def term (X1 X2 : SF.Idx → EReal) (b : Fin 4) (p q : Fin 65536) : EReal :=
  max (cosv X1 b p q - cosv X2 b p q) (-(cosv X1 b p q - cosv X2 b p q))

/-- The mean over all pairs. -/
def G (X1 X2 : SF.Idx → EReal) (I1 I2 : ST.Idx → BitVec 32) : EReal :=
  Ideal.div (∑ n : Fin 256, ∑ b : Fin 4, term X1 X2 b (pos (I1 (ix1 n))) (pos (I2 (ix1 n)))) cntV

end Cert.Proof.Spec

end
-- ==== Proof.KIBody.lean ====
import proofs.«404213_j10849087389931_2_alg».proof.Proof.Gen.KernelIdeal
import proofs.«404213_j10849087389931_2_alg».proof.Proof.Gen.KernelIdeal.Skeleton
import proofs.«404213_j10849087389931_2_alg».proof.Proof.Gen.KernelIdeal.Launch
import Idealize.ShloMosaic.Lib.Writes
import Idealize.ShloMosaic.Lib.Pipeline.FrameBody
import Idealize.ShloMosaic.Lib.Pipeline.Value
import Idealize.ShloMosaic.Lib.Pipeline.Kit
import Idealize.ShloMosaic.Lib.Tactic

/-!
# The kernel body at a symbolic grid point

One grid point `n` of the kernel: the two table words `i₁ = idx1[n]`, `i₂ = idx2[n]` are read from scalar memory,
the four columns `x1[:, :, i₁]`, `x1[:, :, i₂]`, `x2[:, :, i₁]`, `x2[:, :, i₂]` are copied from the two arrays
left in HBM into four scratch buffers (one DMA semaphore each, all four started, then all four waited), the two cosine
similarities over the channel axis are formed per batch row, and the sum over the batch of `|D₁ - D₂|` is added to a
one-element accumulator; the first point zeroes the accumulator before adding, the last point also stores
`accumulator * 2⁻¹⁰` to the output's staging buffer.

The body is run three times, once per kind of point (first, middle, last), at a symbolic point `t`. Each run states
what the accumulator (and at the last point the output's buffer) holds afterwards as `stepv` of what it held before and
the four columns, where a column is the array's contents read through the slice the transfer reads.
-/

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's copy for the staging cell beside the counters the kernel's own four
    transfers take their tokens from. -/
abbrev UC : Type := UR sig nD τ × Counters
local notation "𝕄" => MT nD τ sig Unit (Elt F) ℕ UC ℕ

/-- A memref's buffer on core `c`, and that buffer held whole at contents `f` (at the full share, or at share `q`). -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
abbrev ptq (c : Dev nD) {sp : Space} {S : Shape} {e : EltTy} (M : Memref sig .tc sp S e) (q : PosShare TreeShare) (f : Bf (F := F) c M) : sProp 𝕄 :=
  M.view.loc (c : Thread nD τ) ↦{q} f

/-- "n = 0" and "n = 255" as the body computes them. -/
abbrev IsFirst (t : Fin grid0.N) : Prop := Scalar.cmpi .ne (Scalar.extui (Scalar.cmpi .eq (BitVec.ofNat 32 ((grid0.coords t) 0).val) 0#32)) 0#32 = 1#1
abbrev IsLast (t : Fin grid0.N) : Prop := k0_cond2 (grid0.coords t) = 1#1

/-- The kernel's four DMA semaphores, each counter at zero. -/
abbrev sems0 (c : Dev nD) : sProp 𝕄 :=
  iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0)

/-- The accumulator, the whole-buffer rectangles of the accumulator and of a column buffer, and the kernel's `eps`. -/
abbrev accM : Memref sig .tc .vmem S1x1x1 .f32 := Memref.whole cc0_scratch5
abbrev rA : Rect S1x1x1 := Rect.unit (s := S1x1x1) ![0, 0, 0] S1x1x1.size inb_S1x1x1_S1x1x1_0_0_0
abbrev rS : Rect S4x256x1 := Rect.unit (s := S4x256x1) ![0, 0, 0] S4x256x1.size inb_S4x256x1_S4x256x1_0_0_0
abbrev epsW : F .f32 := Scalar.ofBits .f32 0x322BCC77#32

/-- The word point `t` reads from the first table, and from the second. -/
abbrev word1 (c : Dev nD) (t : Fin grid0.N) (i1 : Bf (F := F) c (Memref.whole main_arg2)) : Elt F .i32 :=
  (Memref.whole main_arg2).view.readAt (Elt F) (Rect.unit (s := S256) (k0_off1 (grid0.coords t)) S1.size (k0_off1_inb (grid0.coords t))).toLoadRect i1 (Shape.Idx.first (numel1_S1.symm ▸ Nat.one_pos))
abbrev word2 (c : Dev nD) (t : Fin grid0.N) (i2 : Bf (F := F) c (Memref.whole main_arg3)) : Elt F .i32 :=
  (Memref.whole main_arg3).view.readAt (Elt F) (Rect.unit (s := S256) (k0_off1 (grid0.coords t)) S1.size (k0_off1_inb (grid0.coords t))).toLoadRect i2 (Shape.Idx.first (numel1_S1.symm ▸ Nat.one_pos))

/-- The column of the array `M` at contents `x` that a transfer out of the slice at offsets `off` delivers. -/
abbrev colOf (c : Dev nD) (M : Memref sig .tc .hbm S4x256x65536 .f32) (x : Bf (F := F) c M) (off : Fin 3 → ℕ)
    (h : ∀ a, off a + S4x256x1.size a ≤ S4x256x65536.size a) : Vec F S4x256x1 .f32 :=
  ReadAs.same.apply (View.read (Elt F) (M.slice (Rect.unit (s := S4x256x65536) off S4x256x1.size h) (fun _ => rfl)).view x)

/-- One accumulation step: the accumulator's contents `a` plus the batch sum of `|cos(C0, C1) - cos(C2, C3)|`. -/
def stepv (a : Vec F S1x1x1 .f32) (C0 C1 C2 C3 : Vec F S4x256x1 .f32) : Vec F S1x1x1 .f32 :=
  k0_pay1 (k0_pay4 C0 C1) (k0_pay5 C2 C3) (k0_pay6 C2 C3) epsW a

theorem hzA : (![0, 0, 0] : Fin S1x1x1.rank → ℕ) = fun _ => 0 := by funext a; fin_cases a <;> rfl
theorem hzS : (![0, 0, 0] : Fin S4x256x1.rank → ℕ) = fun _ => 0 := by funext a; fin_cases a <;> rfl

omit [FloatOps F] in
theorem coverA (p : Vec F S1x1x1 .f32) (y : S1x1x1.Idx) : ∃ pc ∈ ([⟨rA, p⟩] : List (View.Piece (Elt F) S1x1x1 .f32)), y ∈ pc.1.set :=
  View.cover_of_tiled [⟨rA, p⟩] S1x1x1.size (by rfl) y
omit [FloatOps F] in
theorem coverA2 (p q : Vec F S1x1x1 .f32) (y : S1x1x1.Idx) : ∃ pc ∈ ([⟨rA, p⟩, ⟨rA, q⟩] : List (View.Piece (Elt F) S1x1x1 .f32)), y ∈ pc.1.set :=
  View.cover_of_tiled [⟨rA, p⟩, ⟨rA, q⟩] S1x1x1.size (by rfl) y

omit [FloatOps F] in
/-- A whole column buffer overwritten by a transfer's payload and then loaded whole reads the payload. -/
theorem loaded_col {κ : Kind} (v : View sig κ .vmem S4x256x1 .f32) (s : v.ty.Contents (Elt F)) (p : Vec F S4x256x1 .f32) :
    v.readAt (Elt F) rS.toLoadRect (v.write (Elt F) s p Finset.univ) = p := by
  rw [View.readAt_eq_ld, View.read_write_univ, View.ld_unit_zero hzS]

omit [FloatOps F] in
/-- The accumulator loaded whole reads its contents. -/
theorem loaded_acc {κ : Kind} (v : View sig κ .vmem S1x1x1 .f32) (f : v.ty.Contents (Elt F)) :
    v.readAt (Elt F) rA.toLoadRect f = v.read (Elt F) f := by
  rw [View.readAt_eq_ld, View.ld_unit_zero hzA]

section Runs

variable (c : Dev nD) (t : Fin grid0.N) (M5 : Memref sig .tc .vmem S1x1x1 .f32) (h5 : M5.IsWhole)
  (i1 : Bf (F := F) c (Memref.whole main_arg2)) (i2 : Bf (F := F) c (Memref.whole main_arg3))
  (x1 : Bf (F := F) c (Memref.whole main_v0)) (x2 : Bf (F := F) c (Memref.whole main_v1))
  (hk1 : k0_chk1 (word1 c t i1)) (hk2 : k0_chk2 (word2 c t i2))

local notation "KER" => cc0__content_loss_kernel (F := F) (grid0.coords t) (Memref.whole main_arg2) (Memref.isWhole_whole _) (Memref.whole main_arg3) (Memref.isWhole_whole _) (Memref.whole main_v0) (Memref.isWhole_whole _) (Memref.whole main_v1) (Memref.isWhole_whole _) M5 h5 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 (Memref.whole cc0_scratch5) (Memref.isWhole_whole _)

/-- The four columns point `t` copies: `x1` at the first table's word and at the second's, `x2` likewise. -/
abbrev col0 : Vec F S4x256x1 .f32 := colOf c (Memref.whole main_v0) x1 (k0_off2 (word1 c t i1)) (k0_off2_inb _ hk1)
abbrev col1 : Vec F S4x256x1 .f32 := colOf c (Memref.whole main_v0) x1 (k0_off3 (word2 c t i2)) (k0_off3_inb _ hk2)
abbrev col2 : Vec F S4x256x1 .f32 := colOf c (Memref.whole main_v1) x2 (k0_off4 (word1 c t i1)) (k0_off4_inb _ hk1)
abbrev col3 : Vec F S4x256x1 .f32 := colOf c (Memref.whole main_v1) x2 (k0_off3 (word2 c t i2)) (k0_off3_inb _ hk2)

/-- The accumulator after point `t`, from what it held before. -/
abbrev stepAt (a : Vec F S1x1x1 .f32) : Vec F S1x1x1 .f32 :=
  stepv a (col0 c t i1 x1 hk1) (col1 c t i2 x1 hk2) (col2 c t i1 x2 hk1) (col3 c t i2 x2 hk2)

/-- What the body needs besides the accumulator and the output's buffer: the two tables, a read share of each array
    per transfer, the four column buffers at anything, the four semaphores at zero; -/
abbrev kerRes : sProp 𝕄 :=
  iprop(pt c (Memref.whole main_arg2) i1 ∗ pt c (Memref.whole main_arg3) i2
    ∗ ptq c (Memref.whole main_v0) (Transfers.shareTokN fullShare 1) x1 ∗ ptq c (Memref.whole main_v0) (Transfers.shareTokN fullShare 2) x1
    ∗ ptq c (Memref.whole main_v1) (Transfers.shareTokN fullShare 3) x2 ∗ ptq c (Memref.whole main_v1) (Transfers.shareTokN fullShare 4) x2
    ∗ (∃ s, pt c (Memref.whole cc0_scratch0) s) ∗ (∃ s, pt c (Memref.whole cc0_scratch1) s)
    ∗ (∃ s, pt c (Memref.whole cc0_scratch2) s) ∗ (∃ s, pt c (Memref.whole cc0_scratch3) s)
    ∗ sems0 c)
/-- and the core owing nothing. -/
abbrev bodyRes : sProp 𝕄 := iprop(kerRes c i1 i2 x1 x2 ∗ ∃ W, owes (c : Thread nD τ) 0 W)

/-- A middle point: the accumulator at `a` ends at `stepAt a`; the output's buffer is untouched. -/
theorem run_mid (hF : ¬ IsFirst t) (hL : ¬ IsLast t) (a : Vec F S1x1x1 .f32) (O : sProp 𝕄) (Q : PUnit → sProp 𝕄) :
    iprop(bodyRes c i1 i2 x1 x2 ∗ owns (c : Thread nD τ) accM fullShare a ∗ O
      ∗ (iprop(bodyRes c i1 i2 x1 x2 ∗ owns (c : Thread nD τ) accM fullShare (stepAt c t i1 i2 x1 x2 hk1 hk2 a) ∗ O) -∗ Q ⟨⟩))
      ⊢ wp frame (wpE (defs₀ (F := F)) Variants.none c none) Set.univ KER Q := by
  unfold owns
  iintro ⟨⟨⟨H1, H2, Hx1a, Hx1b, Hx2a, Hx2b, ⟨%s0, Hs0⟩, ⟨%s1, Hs1⟩, ⟨%s2, Hs2⟩, ⟨%s3, Hs3⟩, ⟨Hd1, Hd2, Hd3, Hd4⟩⟩, ⟨%W, HO⟩⟩, ⟨%fa, %hfa, Ha⟩, HOut, Hk⟩
  subst hfa
  sl_exec! (disch := assumption)
  sl_step
  iapply Hk
  isplitr [Ha HOut]
  · isplitr [HO]; swap; (· iexists _; iexact HO)
    isplitl [H1]; · iexact H1
    isplitl [H2]; · iexact H2
    isplitl [Hx1a]; · iexact Hx1a
    isplitl [Hx1b]; · iexact Hx1b
    isplitl [Hx2a]; · iexact Hx2a
    isplitl [Hx2b]; · iexact Hx2b
    isplitl [Hs0]; · iexists _; iexact Hs0
    isplitl [Hs1]; · iexists _; iexact Hs1
    isplitl [Hs2]; · iexists _; iexact Hs2
    isplitl [Hs3]; · iexists _; iexact Hs3
    isplitl [Hd1]; · iexact Hd1
    isplitl [Hd2]; · iexact Hd2
    isplitl [Hd3]; · iexact Hd3
    iexact Hd4
  isplitl [Ha]
  · iexists _; isplitr; swap; (· iexact Ha)
    ipureintro
    sl_unfold_run_names
    rw [View.read_writes_eq_canon _ _ _ (coverA _), View.canon_unit_zero hzA]
    rw [loaded_col (F := F) (Memref.whole cc0_scratch0).view s0, loaded_col (F := F) (Memref.whole cc0_scratch1).view s1,
      loaded_col (F := F) (Memref.whole cc0_scratch2).view s2, loaded_col (F := F) (Memref.whole cc0_scratch3).view s3,
      loaded_acc (F := F) (Memref.whole cc0_scratch5).view fa]
    rfl
  iexact HOut

/-- The first point: the accumulator, whatever it held, is zeroed and ends at `stepAt` of the zero vector. -/
theorem run_first (hF : IsFirst t) (hL : ¬ IsLast t) (O : sProp 𝕄) (Q : PUnit → sProp 𝕄) :
    iprop(bodyRes c i1 i2 x1 x2 ∗ (∃ a, owns (c : Thread nD τ) accM fullShare a) ∗ O
      ∗ (iprop(bodyRes c i1 i2 x1 x2 ∗ owns (c : Thread nD τ) accM fullShare (stepAt c t i1 i2 x1 x2 hk1 hk2 k0_pay3) ∗ O) -∗ Q ⟨⟩))
      ⊢ wp frame (wpE (defs₀ (F := F)) Variants.none c none) Set.univ KER Q := by
  unfold owns
  iintro ⟨⟨⟨H1, H2, Hx1a, Hx1b, Hx2a, Hx2b, ⟨%s0, Hs0⟩, ⟨%s1, Hs1⟩, ⟨%s2, Hs2⟩, ⟨%s3, Hs3⟩, ⟨Hd1, Hd2, Hd3, Hd4⟩⟩, ⟨%W, HO⟩⟩, ⟨%a, %fa, %hfa, Ha⟩, HOut, Hk⟩
  subst hfa
  sl_exec! (disch := assumption)
  sl_step
  iapply Hk
  isplitr [Ha HOut]
  · isplitr [HO]; swap; (· iexists _; iexact HO)
    isplitl [H1]; · iexact H1
    isplitl [H2]; · iexact H2
    isplitl [Hx1a]; · iexact Hx1a
    isplitl [Hx1b]; · iexact Hx1b
    isplitl [Hx2a]; · iexact Hx2a
    isplitl [Hx2b]; · iexact Hx2b
    isplitl [Hs0]; · iexists _; iexact Hs0
    isplitl [Hs1]; · iexists _; iexact Hs1
    isplitl [Hs2]; · iexists _; iexact Hs2
    isplitl [Hs3]; · iexists _; iexact Hs3
    isplitl [Hd1]; · iexact Hd1
    isplitl [Hd2]; · iexact Hd2
    isplitl [Hd3]; · iexact Hd3
    iexact Hd4
  isplitl [Ha]
  · iexists _; isplitr; swap; (· iexact Ha)
    ipureintro
    sl_unfold_run_names
    rw [View.read_writes_eq_canon _ _ _ (coverA2 _ _), View.canon_cons_unit_zero hzA]
    rw [loaded_col (F := F) (Memref.whole cc0_scratch0).view s0, loaded_col (F := F) (Memref.whole cc0_scratch1).view s1,
      loaded_col (F := F) (Memref.whole cc0_scratch2).view s2, loaded_col (F := F) (Memref.whole cc0_scratch3).view s3,
      View.readCov_unit_zero _ hzA]
    rfl
  iexact HOut

/-- The last point: the accumulator at `a` ends at `stepAt a`, and the output's buffer at that times `2⁻¹⁰`. -/
theorem run_last (hF : ¬ IsFirst t) (hL : IsLast t) (a : Vec F S1x1x1 .f32) (Q : PUnit → sProp 𝕄) :
    iprop(bodyRes c i1 i2 x1 x2 ∗ owns (c : Thread nD τ) accM fullShare a ∗ (∃ d, owns (c : Thread nD τ) M5 fullShare d)
      ∗ (iprop(bodyRes c i1 i2 x1 x2 ∗ owns (c : Thread nD τ) accM fullShare (stepAt c t i1 i2 x1 x2 hk1 hk2 a)
          ∗ owns (c : Thread nD τ) M5 fullShare (k0_pay2 (stepAt c t i1 i2 x1 x2 hk1 hk2 a))) -∗ Q ⟨⟩))
      ⊢ wp frame (wpE (defs₀ (F := F)) Variants.none c none) Set.univ KER Q := by
  unfold owns
  iintro ⟨⟨⟨H1, H2, Hx1a, Hx1b, Hx2a, Hx2b, ⟨%s0, Hs0⟩, ⟨%s1, Hs1⟩, ⟨%s2, Hs2⟩, ⟨%s3, Hs3⟩, ⟨Hd1, Hd2, Hd3, Hd4⟩⟩, ⟨%W, HO⟩⟩, ⟨%fa, %hfa, Ha⟩, ⟨%d, %f5, %hf5, HOut⟩, Hk⟩
  subst hfa
  sl_exec! (disch := assumption)
  sl_step
  iapply Hk
  isplitr [Ha HOut]
  · isplitr [HO]; swap; (· iexists _; iexact HO)
    isplitl [H1]; · iexact H1
    isplitl [H2]; · iexact H2
    isplitl [Hx1a]; · iexact Hx1a
    isplitl [Hx1b]; · iexact Hx1b
    isplitl [Hx2a]; · iexact Hx2a
    isplitl [Hx2b]; · iexact Hx2b
    isplitl [Hs0]; · iexists _; iexact Hs0
    isplitl [Hs1]; · iexists _; iexact Hs1
    isplitl [Hs2]; · iexists _; iexact Hs2
    isplitl [Hs3]; · iexists _; iexact Hs3
    isplitl [Hd1]; · iexact Hd1
    isplitl [Hd2]; · iexact Hd2
    isplitl [Hd3]; · iexact Hd3
    iexact Hd4
  isplitl [Ha]
  · iexists _; isplitr; swap; (· iexact Ha)
    ipureintro
    sl_unfold_run_names
    rw [View.read_writes_eq_canon _ _ _ (coverA _), View.canon_unit_zero hzA]
    rw [loaded_col (F := F) (Memref.whole cc0_scratch0).view s0, loaded_col (F := F) (Memref.whole cc0_scratch1).view s1,
      loaded_col (F := F) (Memref.whole cc0_scratch2).view s2, loaded_col (F := F) (Memref.whole cc0_scratch3).view s3,
      loaded_acc (F := F) (Memref.whole cc0_scratch5).view fa]
    rfl
  · iexists _; isplitr; swap; (· iexact HOut)
    ipureintro
    sl_unfold_run_names
    rw [View.read_writes_eq_canon _ _ _ (coverA _), View.canon_unit_zero hzA, View.readCov_unit_zero _ hzA]
    rw [loaded_col (F := F) (Memref.whole cc0_scratch0).view s0, loaded_col (F := F) (Memref.whole cc0_scratch1).view s1,
      loaded_col (F := F) (Memref.whole cc0_scratch2).view s2, loaded_col (F := F) (Memref.whole cc0_scratch3).view s3,
      loaded_acc (F := F) (Memref.whole cc0_scratch5).view fa]
    rfl

end Runs

/-! ## The accumulator after each point, and the output block -/

section Acc

variable (c : Dev nD) (i1 : Bf (F := F) c (Memref.whole main_arg2)) (i2 : Bf (F := F) c (Memref.whole main_arg3))
  (x1 : Bf (F := F) c (Memref.whole main_v0)) (x2 : Bf (F := F) c (Memref.whole main_v1))

/-- Every word the body reads from the two tables passes the body's side condition (it names a column inside the array). -/
def Ok : Prop := ∀ t : Fin grid0.N, k0_chk1 (word1 c t i1) ∧ k0_chk2 (word2 c t i2)

variable {c i1 i2}

/-- The accumulator after point `k`: the first point steps from the zero vector, every later one from what the point
    before left. -/
def accA (hk : Ok c i1 i2) : (k : ℕ) → k < grid0.N → Vec F S1x1x1 .f32
  | 0, h => stepAt c ⟨0, h⟩ i1 i2 x1 x2 (hk ⟨0, h⟩).1 (hk ⟨0, h⟩).2 k0_pay3
  | k + 1, h => stepAt c ⟨k + 1, h⟩ i1 i2 x1 x2 (hk ⟨k + 1, h⟩).1 (hk ⟨k + 1, h⟩).2 (accA hk k (Nat.lt_of_succ_lt h))

/-- What the last point stores to the output's block: the final accumulator times `2⁻¹⁰`. -/
def outV (hk : Ok c i1 i2) : Vec F S1x1x1 .f32 := k0_pay2 (accA x1 x2 hk 255 (by decide))

end Acc

end Cert.Proof.KI

end
-- ==== Proof.KIRun.lean ====
import proofs.«404213_j10849087389931_2_alg».proof.Proof.KIBody
import proofs.«404213_j10849087389931_2_alg».proof.Proof.Gen.KernelIdeal.Launch
import Idealize.ShloMosaic.Lib.Pipeline.Regions
import Idealize.ShloMosaic.Lib.Pipeline.FrameSuffix

/-!
# The pipeline's proof data and the body obligation

The region is a 256-point pipeline with ONE window, the output's `[1, 1, 1]` block, whose index map is constant: it is
written back at the last point only, and the body stores into its staging buffer at the last point only (idle
elsewhere). The invariant between points holds the two tables, the two arrays left in HBM (a read share per transfer
handed to the body, the other shares kept beside them), the four column buffers at anything, the kernel's four
semaphores at zero, and the accumulator — at anything before the first point, at `accA (k - 1)` before point `k > 0`.
-/

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-! ## The kinds of point, and the window's schedule -/

theorem isFirst_iff : ∀ t : Fin grid0.N, IsFirst t ↔ t.val = 0 := by decide +kernel
theorem isLast_iff : ∀ t : Fin grid0.N, IsLast t ↔ t.val = 255 := by decide +kernel

section Sched
variable (a : (pcfg0 (F := F)).Adm)

/-- The output's block is written back at the last point only (its index map is constant). -/
theorem flush_iff (t : Fin (cfg0 a).N) : (pcfg0.win a 0).flush t = true ↔ t.val = 255 :=
  (by decide +kernel : ∀ t : Fin grid0.N, Pipeline.Window.flushOf grid0 true cc0_transform_2 t = true ↔ t.val = 255) t

theorem idle_of_not_last (t : Fin (cfg0 a).N) (h : ¬ IsLast t) : idle0 0 ((pcfg0.gridAt a.1).coords t) = true := by
  show (!(k0_cond2 (grid0.coords t) == 1#1)) = true; rw [show (k0_cond2 (grid0.coords t) == 1#1) = false from beq_eq_false_iff_ne.mpr h]; rfl
theorem idle_of_last (t : Fin (cfg0 a).N) (h : IsLast t) : idle0 0 ((pcfg0.gridAt a.1).coords t) = false := by
  show (!(k0_cond2 (grid0.coords t) == 1#1)) = false; rw [show (k0_cond2 (grid0.coords t) == 1#1) = true from beq_iff_eq.mpr h]; rfl

end Sched

/-! ## Read shares of the two arrays left in HBM -/

section Shares

variable (ℓ : Loc nD τ sig) (f : Buf (Elt F) ℓ)

omit [FloatOps F] in
/-- What remains of the full share after `k` read tokens splits into what remains after `k + 1` and the `k`-th token. -/
theorem drop_step (k : ℕ) :
    (ℓ ↦{Transfers.shareDrop fullShare k} f : sProp 𝕄)
      ⊣⊢ iprop((ℓ ↦{Transfers.shareDrop fullShare (k + 1)} f) ∗ ℓ ↦{Transfers.shareTokN fullShare k} f) :=
  pointsTo_share (PosShare.mem_left_op_right _)

omit [FloatOps F] in
theorem drop0 : (ℓ ↦{fullShare} f : sProp 𝕄) ⊣⊢ iprop((ℓ ↦{Transfers.shareDrop fullShare 1} f) ∗ ℓ ↦{Transfers.shareTokN fullShare 0} f) := drop_step ℓ f 0
omit [FloatOps F] in
theorem drop1 : (ℓ ↦{Transfers.shareDrop fullShare 1} f : sProp 𝕄) ⊣⊢ iprop((ℓ ↦{Transfers.shareDrop fullShare 2} f) ∗ ℓ ↦{Transfers.shareTokN fullShare 1} f) := drop_step ℓ f 1
omit [FloatOps F] in
theorem drop2 : (ℓ ↦{Transfers.shareDrop fullShare 2} f : sProp 𝕄) ⊣⊢ iprop((ℓ ↦{Transfers.shareDrop fullShare 3} f) ∗ ℓ ↦{Transfers.shareTokN fullShare 2} f) := drop_step ℓ f 2
omit [FloatOps F] in
theorem drop3 : (ℓ ↦{Transfers.shareDrop fullShare 3} f : sProp 𝕄) ⊣⊢ iprop((ℓ ↦{Transfers.shareDrop fullShare 4} f) ∗ ℓ ↦{Transfers.shareTokN fullShare 3} f) := drop_step ℓ f 3
omit [FloatOps F] in
theorem drop4 : (ℓ ↦{Transfers.shareDrop fullShare 4} f : sProp 𝕄) ⊣⊢ iprop((ℓ ↦{Transfers.shareDrop fullShare 5} f) ∗ ℓ ↦{Transfers.shareTokN fullShare 4} f) := drop_step ℓ f 4

end Shares

section Data

variable (c : Dev nD) (Vc : (b : Ref sig .tc) → Buf (Elt F) ((c : Thread nD τ).loc b))

/-- The tables' and the two arrays' contents when the region is entered. -/
abbrev tI1 : Bf (F := F) c (Memref.whole main_arg2) := Vc main_arg2
abbrev tI2 : Bf (F := F) c (Memref.whole main_arg3) := Vc main_arg3
abbrev aX1 : Bf (F := F) c (Memref.whole main_v0) := Vc main_v0
abbrev aX2 : Bf (F := F) c (Memref.whole main_v1) := Vc main_v1

/-- The shares of the two arrays the body does not use: what is left of the first after three tokens and its token 0,
    what is left of the second after five and its tokens 0, 1, 2. -/
abbrev sharesRest : sProp 𝕄 :=
  iprop(ptq c (Memref.whole main_v0) (Transfers.shareDrop fullShare 3) (aX1 c Vc) ∗ ptq c (Memref.whole main_v0) (Transfers.shareTokN fullShare 0) (aX1 c Vc)
    ∗ ptq c (Memref.whole main_v1) (Transfers.shareDrop fullShare 5) (aX2 c Vc) ∗ ptq c (Memref.whole main_v1) (Transfers.shareTokN fullShare 0) (aX2 c Vc)
    ∗ ptq c (Memref.whole main_v1) (Transfers.shareTokN fullShare 1) (aX2 c Vc) ∗ ptq c (Memref.whole main_v1) (Transfers.shareTokN fullShare 2) (aX2 c Vc))

/-- The first array whole is its tokens 1 and 2 (the body's) and the two shares kept aside; -/
theorem v0_split (x : Bf (F := F) c (Memref.whole main_v0)) :
    pt c (Memref.whole main_v0) x ⊢ iprop(ptq c (Memref.whole main_v0) (Transfers.shareTokN fullShare 1) x ∗ ptq c (Memref.whole main_v0) (Transfers.shareTokN fullShare 2) x
      ∗ ptq c (Memref.whole main_v0) (Transfers.shareDrop fullShare 3) x ∗ ptq c (Memref.whole main_v0) (Transfers.shareTokN fullShare 0) x) := by
  iintro H
  ihave H := (drop0 _ x).1 $$ H; icases H with ⟨H, T0⟩
  ihave H := (drop1 _ x).1 $$ H; icases H with ⟨H, T1⟩
  ihave H := (drop2 _ x).1 $$ H; icases H with ⟨H, T2⟩
  isplitl [T1]; · iexact T1
  isplitl [T2]; · iexact T2
  isplitl [H]; · iexact H
  iexact T0
theorem v0_join (x : Bf (F := F) c (Memref.whole main_v0)) :
    iprop(ptq c (Memref.whole main_v0) (Transfers.shareTokN fullShare 1) x ∗ ptq c (Memref.whole main_v0) (Transfers.shareTokN fullShare 2) x
      ∗ ptq c (Memref.whole main_v0) (Transfers.shareDrop fullShare 3) x ∗ ptq c (Memref.whole main_v0) (Transfers.shareTokN fullShare 0) x) ⊢ pt c (Memref.whole main_v0) x := by
  iintro ⟨T1, T2, H, T0⟩
  ihave H := (drop2 _ x).2 $$ [H T2]; · isplitl [H] <;> iassumption
  ihave H := (drop1 _ x).2 $$ [H T1]; · isplitl [H] <;> iassumption
  ihave H := (drop0 _ x).2 $$ [H T0]; · isplitl [H] <;> iassumption
  iexact H
/-- the second its tokens 3 and 4 and the four kept aside. -/
theorem v1_split (x : Bf (F := F) c (Memref.whole main_v1)) :
    pt c (Memref.whole main_v1) x ⊢ iprop(ptq c (Memref.whole main_v1) (Transfers.shareTokN fullShare 3) x ∗ ptq c (Memref.whole main_v1) (Transfers.shareTokN fullShare 4) x
      ∗ ptq c (Memref.whole main_v1) (Transfers.shareDrop fullShare 5) x ∗ ptq c (Memref.whole main_v1) (Transfers.shareTokN fullShare 0) x
      ∗ ptq c (Memref.whole main_v1) (Transfers.shareTokN fullShare 1) x ∗ ptq c (Memref.whole main_v1) (Transfers.shareTokN fullShare 2) x) := by
  iintro H
  ihave H := (drop0 _ x).1 $$ H; icases H with ⟨H, T0⟩
  ihave H := (drop1 _ x).1 $$ H; icases H with ⟨H, T1⟩
  ihave H := (drop2 _ x).1 $$ H; icases H with ⟨H, T2⟩
  ihave H := (drop3 _ x).1 $$ H; icases H with ⟨H, T3⟩
  ihave H := (drop4 _ x).1 $$ H; icases H with ⟨H, T4⟩
  isplitl [T3]; · iexact T3
  isplitl [T4]; · iexact T4
  isplitl [H]; · iexact H
  isplitl [T0]; · iexact T0
  isplitl [T1]; · iexact T1
  iexact T2
theorem v1_join (x : Bf (F := F) c (Memref.whole main_v1)) :
    iprop(ptq c (Memref.whole main_v1) (Transfers.shareTokN fullShare 3) x ∗ ptq c (Memref.whole main_v1) (Transfers.shareTokN fullShare 4) x
      ∗ ptq c (Memref.whole main_v1) (Transfers.shareDrop fullShare 5) x ∗ ptq c (Memref.whole main_v1) (Transfers.shareTokN fullShare 0) x
      ∗ ptq c (Memref.whole main_v1) (Transfers.shareTokN fullShare 1) x ∗ ptq c (Memref.whole main_v1) (Transfers.shareTokN fullShare 2) x) ⊢ pt c (Memref.whole main_v1) x := by
  iintro ⟨T3, T4, H, T0, T1, T2⟩
  ihave H := (drop4 _ x).2 $$ [H T4]; · isplitl [H] <;> iassumption
  ihave H := (drop3 _ x).2 $$ [H T3]; · isplitl [H] <;> iassumption
  ihave H := (drop2 _ x).2 $$ [H T2]; · isplitl [H] <;> iassumption
  ihave H := (drop1 _ x).2 $$ [H T1]; · isplitl [H] <;> iassumption
  ihave H := (drop0 _ x).2 $$ [H T0]; · isplitl [H] <;> iassumption
  iexact H

variable (hk : Ok c (tI1 c Vc) (tI2 c Vc))

/-- The accumulator after a point that is not the first: one step from what the point before left. -/
theorem accA_step (t : Fin grid0.N) (h : t.val ≠ 0) (hp : t.val - 1 < grid0.N) :
    accA (aX1 c Vc) (aX2 c Vc) hk t.val t.isLt
      = stepAt c t (tI1 c Vc) (tI2 c Vc) (aX1 c Vc) (aX2 c Vc) (hk t).1 (hk t).2 (accA (aX1 c Vc) (aX2 c Vc) hk (t.val - 1) hp) := by
  obtain ⟨k, hk'⟩ := t
  cases k with
  | zero => exact absurd rfl h
  | succ k => rfl
/-- After the first point: one step from the zero vector. -/
theorem accA_first (t : Fin grid0.N) (h : t.val = 0) :
    accA (aX1 c Vc) (aX2 c Vc) hk t.val t.isLt = stepAt c t (tI1 c Vc) (tI2 c Vc) (aX1 c Vc) (aX2 c Vc) (hk t).1 (hk t).2 k0_pay3 := by
  obtain ⟨k, hk'⟩ := t
  cases k with
  | zero => rfl
  | succ k => exact absurd h (Nat.succ_ne_zero k)

/-- The accumulator's part of the invariant before point `k`. -/
def accPart (k : Fin (grid0.N + 1)) : sProp 𝕄 :=
  if h : k.val = 0 then iprop(∃ a, owns (c : Thread nD τ) accM fullShare a)
  else owns (c : Thread nD τ) accM fullShare (accA (aX1 c Vc) (aX2 c Vc) hk (k.val - 1) (by have := k.isLt; omega))

/-- The invariant before point `k`. -/
def Φv (k : Fin (grid0.N + 1)) : sProp 𝕄 :=
  iprop(kerRes c (tI1 c Vc) (tI2 c Vc) (aX1 c Vc) (aX2 c Vc) ∗ accPart c Vc hk k ∗ sharesRest c Vc)

variable (a : (pcfg0 (F := F)).Adm)

/-- The proof data on core `c`: the output's array at its entry contents; what the body leaves in the output's block
    (read at the last point only, the others being idle): the accumulator after the point times `2⁻¹⁰`; the invariant;
    nothing owed; the full share. -/
def dat : Dat τ (Elt F) Unit ℕ UC ℕ (cfg0 a) c where
  A w := Vc (Pipeline.arrRef spec0 w)
  after w t := match w with
    | ⟨0, _⟩ => k0_pay2 (accA (aX1 c Vc) (aX2 c Vc) hk t.val t.isLt)
  Φ k := Φv c Vc hk k
  q _ := fullShare
  owed _ := 0

end Data

/-! ## The body obligation -/

section Obligation

variable (c : Dev nD) (Vc : (b : Ref sig .tc) → Buf (Elt F) ((c : Thread nD τ).loc b)) (hk : Ok c (tI1 c Vc) (tI2 c Vc))
  (a : (pcfg0 (F := F)).Adm)

theorem flush_of_not_last (t : Fin (cfg0 a).N) (h : ¬ IsLast t) : (pcfg0.win a 0).flush t = false :=
  Bool.eq_false_iff.mpr fun hf => h ((isLast_iff t).mpr ((flush_iff a t).mp hf))

theorem owesAt_intro (t : Fin ((cfg0 a).N + 1)) (W' : Waits sig Unit) :
    owes (c : Thread nD τ) 0 W' ⊢ ((dat c Vc hk a).owesAt () t : sProp 𝕄) := by
  unfold Dat.owesAt Pipeline.owesWithin
  rw [show (dat c Vc hk a).owed t = 0 from rfl]
  iintro HO; iexists W'; isplitr; · ipureintro; exact fun _ _ => Or.inl trivial
  iexact HO

/-- The invariant before and after point `t`. -/
theorem Φ_pre_first (t : Fin (cfg0 a).N) (h : t.val = 0) :
    (dat c Vc hk a).Φ t.castSucc = iprop(kerRes c (tI1 c Vc) (tI2 c Vc) (aX1 c Vc) (aX2 c Vc)
      ∗ (∃ a, owns (c : Thread nD τ) accM fullShare a) ∗ sharesRest c Vc) := by
  show Φv c Vc hk _ = _; unfold Φv accPart; rw [dif_pos (by exact h)]
theorem Φ_pre_other (t : Fin (cfg0 a).N) (h : t.val ≠ 0) :
    (dat c Vc hk a).Φ t.castSucc = iprop(kerRes c (tI1 c Vc) (tI2 c Vc) (aX1 c Vc) (aX2 c Vc)
      ∗ owns (c : Thread nD τ) accM fullShare (accA (aX1 c Vc) (aX2 c Vc) hk (t.val - 1) (by have := t.isLt; have hN : (cfg0 a).N = grid0.N := rfl; omega)) ∗ sharesRest c Vc) := by
  show Φv c Vc hk _ = _; unfold Φv accPart; rw [dif_neg (by exact h)]; rfl
theorem Φ_post (t : Fin (cfg0 a).N) :
    (dat c Vc hk a).Φ t.succ = iprop(kerRes c (tI1 c Vc) (tI2 c Vc) (aX1 c Vc) (aX2 c Vc)
      ∗ owns (c : Thread nD τ) accM fullShare (accA (aX1 c Vc) (aX2 c Vc) hk t.val t.isLt) ∗ sharesRest c Vc) := by
  show Φv c Vc hk _ = _; unfold Φv accPart; rw [dif_neg (by show ¬ (t.val + 1) = 0; omega)]; rfl

/-- The library's body obligation at every point, by the point's kind: the run of that kind between the invariant's two
    forms; the output's staging buffer passed through untouched at the idle points, at what the body stored at the last. -/
theorem body_obligation : BodyObligation (dat c Vc hk a) (defs₀ (F := F)) Variants.none () Set.univ := fun t => by
  rw [bigSep_W0, bigSep_W0]
  unfold Dat.owesAt Pipeline.owesWithin
  rw [show (dat c Vc hk a).owed t.castSucc = 0 from rfl]
  have hN : (cfg0 a).N = 256 := N_0
  have hG : grid0.N = 256 := N_0
  have hlt := t.isLt
  by_cases hL : IsLast t
  · -- the last point: not the first
    have h255 : t.val = 255 := (isLast_iff t).mp hL
    have hF : ¬ IsFirst t := fun h => by have := (isFirst_iff t).mp h; omega
    have h0 : t.val ≠ 0 := by omega
    simp only [idle_of_last a t hL]
    rw [Φ_pre_other c Vc hk a t h0, Φ_post c Vc hk a t,
      show (dat c Vc hk a).after 0 t = k0_pay2 (accA (aX1 c Vc) (aX2 c Vc) hk t.val t.isLt) from rfl,
      accA_step c Vc hk t h0 (by omega)]
    iintro ⟨⟨Hker, Ha, Hrest⟩, ⟨%Wt, %hW, HO⟩, ⟨%d0, H0⟩⟩
    iapply (run_last c t (((cfg0 a).win 0).stage ((cfg0 a).slots t 0)) (hstage0_0 (((cfg0 a).slots t 0).cast nbuf0_0))
      (tI1 c Vc) (tI2 c Vc) (aX1 c Vc) (aX2 c Vc) (hk t).1 (hk t).2 hF hL _)
    isplitl [Hker HO]
    · isplitl [Hker]; · iexact Hker
      iexists _; iexact HO
    isplitl [Ha]; · iexact Ha
    isplitl [H0]; · iexists _; iexact H0
    iintro ⟨⟨Hker, ⟨%W', HO⟩⟩, Ha, H0⟩
    isplitl [Hker Ha Hrest]
    · isplitl [Hker]; · iexact Hker
      isplitl [Ha] <;> iassumption
    isplitl [HO]; · iapply (owesAt_intro c Vc hk a); iexact HO
    iexact H0
  · simp only [idle_of_not_last a t hL]
    split
    case h_2 heq => exact absurd (heq.symm.trans (flush_of_not_last a t hL)) (by decide)
    by_cases hF : IsFirst t
    · -- the first point
      have h0 : t.val = 0 := (isFirst_iff t).mp hF
      rw [Φ_pre_first c Vc hk a t h0, Φ_post c Vc hk a t, accA_first c Vc hk t h0]
      iintro ⟨⟨Hker, Ha, Hrest⟩, ⟨%Wt, %hW, HO⟩, H0⟩
      iapply (run_first c t (((cfg0 a).win 0).stage ((cfg0 a).slots t 0)) (hstage0_0 (((cfg0 a).slots t 0).cast nbuf0_0))
        (tI1 c Vc) (tI2 c Vc) (aX1 c Vc) (aX2 c Vc) (hk t).1 (hk t).2 hF hL _)
      isplitl [Hker HO]
      · isplitl [Hker]; · iexact Hker
        iexists _; iexact HO
      isplitl [Ha]; · iexact Ha
      isplitl [H0]; · iexact H0
      iintro ⟨⟨Hker, ⟨%W', HO⟩⟩, Ha, H0⟩
      isplitl [Hker Ha Hrest]
      · isplitl [Hker]; · iexact Hker
        isplitl [Ha] <;> iassumption
      isplitl [HO]; · iapply (owesAt_intro c Vc hk a); iexact HO
      iexact H0
    · -- a middle point
      have h0 : t.val ≠ 0 := fun h => hF ((isFirst_iff t).mpr h)
      rw [Φ_pre_other c Vc hk a t h0, Φ_post c Vc hk a t, accA_step c Vc hk t h0 (by omega)]
      iintro ⟨⟨Hker, Ha, Hrest⟩, ⟨%Wt, %hW, HO⟩, H0⟩
      iapply (run_mid c t (((cfg0 a).win 0).stage ((cfg0 a).slots t 0)) (hstage0_0 (((cfg0 a).slots t 0).cast nbuf0_0))
        (tI1 c Vc) (tI2 c Vc) (aX1 c Vc) (aX2 c Vc) (hk t).1 (hk t).2 hF hL _ _)
      isplitl [Hker HO]
      · isplitl [Hker]; · iexact Hker
        iexists _; iexact HO
      isplitl [Ha]; · iexact Ha
      isplitl [H0]; · iexact H0
      iintro ⟨⟨Hker, ⟨%W', HO⟩⟩, Ha, H0⟩
      isplitl [Hker Ha Hrest]
      · isplitl [Hker]; · iexact Hker
        isplitl [Ha] <;> iassumption
      isplitl [HO]; · iapply (owesAt_intro c Vc hk a); iexact HO
      iexact H0

end Obligation

end Cert.Proof.KI

end
-- ==== Proof.KILaunch.lean ====
import proofs.«404213_j10849087389931_2_alg».proof.Proof.KIRun

/-!
# The launch

`@main` is two reshapes (the two arguments flattened to `[4, 256, 65536]`), the kernel region, and one reshape (the
region's `[1, 1, 1]` result to a scalar). As a list of segments: the first two operations over the unscoped buffers,
the region entered from what they left — the output's array into the pipeline, the two flattened arrays, the two tables
and the kernel's own four semaphores into the invariant, the two arguments and the scalar result's buffer bypassing —,
and the last operation over the buffers the region handed back. The run: every weakly fair execution terminates, the
scalar result holds the reshape of what the last grid point wrote back, and the four arguments are unchanged.
-/

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UC ℕ

/-- The pipeline library's algebra is the left component of the certificate's. -/
abbrev EP : Emb (UR sig nD τ) (MT nD τ sig Unit (Elt F) ℕ UC ℕ) := embL

variable (m : (ℓ : Loc nD τ sig) → Buf (Elt F) ℓ) (ρ : Dev nD → PrngReg)

/-- Core `c`'s buffers at launch, as the operations' valuation; when the region is entered (the two reshapes have run); -/
abbrev V₀ (c : Dev nD) : Valuation τ sig (Elt F) := fun b => (s₀ m ρ).mem ((c : Dev nD), b)
abbrev V1 (c : Dev nD) : Valuation τ sig (Elt F) := StableHlo.after hostOps0 (V₀ m ρ c)
abbrev Vr (c : Dev nD) (b : Ref sig .tc) : Buf (Elt F) ((c : Thread nD τ).loc b) := V1 m ρ c b

/-- The hypothesis the frame holds under: on every core, every table word names a column inside the arrays. -/
abbrev OkAll : Prop := ∀ c : Dev nD, Ok c (tI1 c (Vr m ρ c)) (tI2 c (Vr m ρ c))

variable (hOk : OkAll m ρ)

/-- The prefetched tables' admissible contents: what the two tables hold (the one device's). -/
abbrev adm : (p : Fin 1) → (pcfgs (F := F) p).Adm := fun _ => ⟨fun k => Vr m ρ 0 (pre0.ref k), trivial⟩

/-- The proof data of the one pipeline. -/
def dats (p : Fin 1) (c : Dev nD) : Dat τ (Elt F) Unit ℕ UC ℕ (Pipeline.pin (pcfgs (F := F)) (adm m ρ) p) c :=
  dat c (Vr m ρ c) (hOk c) (adm m ρ p)

/-- The kernel's own semaphores: its four scratch DMA semaphores, the pool's 1 to 4. -/
abbrev osem : Fin 4 → SemLoc sig := fun | 0 => .dma 1 | 1 => .dma 2 | 2 => .dma 3 | 3 => .dma 4
theorem ownSemFacts : Pipeline.OwnSemFacts spec0 osem := by decide

omit [FloatOps F] in
theorem ownSems0_eq (c : Dev nD) :
    (Pipeline.ownSems0 (Ix := Unit) (Name := ℕ) (U := UC) (Lvl := ℕ) (Val := Elt F) (τ := τ) osem c : sProp 𝕄) = sems0 c :=
  Pipeline.ownSems0_eq_of_list c osem [0, 1, 2, 3] (by decide) (by decide)

/-- No core owes another anything: no level is assigned. -/
abbrev L : GSem nD τ sig → Finset Unit := fun _ => ∅
abbrev lv : GSem nD τ sig → Unit → ℕ := fun _ _ => 0

/-- What rides beside the buffers through the host operations: the core's `owes`. -/
abbrev R (c : Dev nD) : sProp 𝕄 := iprop(∃ W, owes (c : Thread nD τ) (0 : CellTallies nD τ sig Unit) W)

/-- THE FIRST HOST SEGMENT: the two reshapes over the unscoped buffers. -/
def seg0 : Pipeline.HostSeg (Name := ℕ) (U := UC) (pcfgs (F := F)) defs₀ Variants.none L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m ρ) R

/-! ## The region -/

/-- The output's array after the region, as the pipeline library computes it. -/
abbrev Aout (c : Dev nD) (w : Fin 1) : Buf (Elt F) (((Pipeline.pin (pcfgs (F := F)) (adm m ρ) 0).spec w).arr.view.loc (c : Thread nD τ)) :=
  (dats m ρ hOk 0 c).arrAt w (Pipeline.pin (pcfgs (F := F)) (adm m ρ) 0).N
/-- Core `c`'s buffers when the region is left: the output's array at its final contents, the rest as entered. -/
abbrev V2 (c : Dev nD) : Valuation τ sig (Elt F) := Pipeline.withArrays spec0 c (V1 m ρ c) (Aout m ρ hOk c)
/-- The two tables, and what rides beside the buffers through the last host operation. -/
abbrev tabs (c : Dev nD) : sProp 𝕄 :=
  iprop(pt c (Memref.whole main_arg2) (Vr m ρ c main_arg2) ∗ pt c (Memref.whole main_arg3) (Vr m ρ c main_arg3))
abbrev R1 (c : Dev nD) : sProp 𝕄 := iprop(tabs m ρ c ∗ R c)

/-- The buffers a line after the region may touch, at the region's exit contents: the output's array at its final
    contents and the five bypassing buffers as entered. -/
theorem held_V2 (c : Dev nD) :
    (StableHlo.held (c : Thread nD τ) (Pipeline.tailRefs sig pre0 spec0) (V2 m ρ hOk c) : sProp 𝕄)
      = iprop(Pipeline.arrPts spec0 c (Aout m ρ hOk c) ∗ Pipeline.unscopedRestP pre0 spec0 c (Vr m ρ c)) := by
  rw [Pipeline.held_tailRefs pre0 spec0 (launch0 (F := F)).win.arr_inj c (V2 m ρ hOk c)]
  congr 1
  all_goals first
    | exact congrArg (Pipeline.arrPts spec0 c) (funext fun w => Pipeline.withArrays_arr spec0 (launch0 (F := F)).win.arr_inj c _ _ w)
    | (unfold Pipeline.unscopedRestP
       exact bigSep_congr fun b hb => by
        rw [Pipeline.withArrays_of_ne spec0 c _ _ b fun w e =>
          (Finset.mem_sdiff.mp (Finset.mem_sdiff.mp hb).1).2 (Finset.mem_image.mpr ⟨w, Finset.mem_univ _, e⟩)])

theorem Φ_zero (c : Dev nD) : (dats m ρ hOk 0 c).Φ 0
    = iprop(kerRes c (tI1 c (Vr m ρ c)) (tI2 c (Vr m ρ c)) (aX1 c (Vr m ρ c)) (aX2 c (Vr m ρ c))
      ∗ (∃ a, owns (c : Thread nD τ) accM fullShare a) ∗ sharesRest c (Vr m ρ c)) := by
  show Φv c (Vr m ρ c) (hOk c) _ = _; unfold Φv accPart; rw [dif_pos (by rfl)]
/-- After the last point the accumulator is held at something. -/
theorem Φ_last (c : Dev nD) : (dats m ρ hOk 0 c).Φ (Fin.last (Pipeline.pin (pcfgs (F := F)) (adm m ρ) 0).N)
    ⊢ iprop(kerRes c (tI1 c (Vr m ρ c)) (tI2 c (Vr m ρ c)) (aX1 c (Vr m ρ c)) (aX2 c (Vr m ρ c))
      ∗ (∃ a, owns (c : Thread nD τ) accM fullShare a) ∗ sharesRest c (Vr m ρ c)) := by
  show Φv c (Vr m ρ c) (hOk c) _ ⊢ _
  unfold Φv accPart
  split
  · exact .rfl
  · iintro ⟨Hk, Ha, Hr⟩
    isplitl [Hk]; · iexact Hk
    isplitl [Ha]; · iexists _; iexact Ha
    iexact Hr

/-- The two tables held whole, as the pipeline holds its prefetched tables. -/
theorem prefHeld_eq :
    (Pipeline.prefHeld pre0 (0 : Dev nD) (fun _ => fullShare) (adm m ρ 0).1 : sProp 𝕄) = tabs m ρ 0 := by
  unfold Pipeline.prefHeld; rw [BI.bigSep_fin_two]; rfl

set_option backward.isDefEq.respectTransparency.types false in
/-- THE REGION: the generated layout facts, the kernel's four DMA semaphores, the body obligation; entered from what the
    first segment left, left with the output's array at its final contents. -/
def reg0 : Pipeline.RegionSeg (pcfgs (F := F)) (adm m ρ) (dats m ρ hOk) () defs₀ Variants.none L lv 0 where
  win := (launch0 (F := F)).win.to₀
  block_pos := (launch0 (F := F)).block_pos
  stage_whole := (launch0 (F := F)).stage_whole
  K := Fin 4
  osem := osem
  ho := ownSemFacts
  hbody c := (body_obligation c (Vr m ρ c) (hOk c) (adm m ρ 0)).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.tailRefs sig pre0 spec0) (V2 m ρ hOk c) ∗ R1 m ρ c)
  X c := iprop(pt c (Memref.whole main_v0) (Vr m ρ c main_v0) ∗ pt c (Memref.whole main_v1) (Vr m ρ c main_v1) ∗ sems0 c)
  Y c := iprop(pt c (Memref.whole main_v0) (Vr m ρ c main_v0) ∗ pt c (Memref.whole main_v1) (Vr m ρ c main_v1) ∗ tabs m ρ c)
  Z c := iprop((((c : Thread nD τ).loc main_arg0) ↦{fullShare} Vr m ρ c main_arg0) ∗ (((c : Thread nD τ).loc main_arg1) ↦{fullShare} Vr m ρ c main_arg1)
    ∗ (((c : Thread nD τ).loc main_v3) ↦{fullShare} Vr m ρ c main_v3))
  hentry c := by
    have hc : c = 0 := Subsingleton.elim c 0
    subst hc
    rw [show StableHlo.held ((0 : Dev nD) : Thread nD τ) (Pipeline.ucRefs τ sig) (StableHlo.after hostOps0 (V₀ m ρ 0)) = unscopedBufs (0 : Dev nD) (Vr m ρ 0) from (Pipeline.unscopedBufs_held (0 : Dev nD) _).symm,
      ownSems0_eq]
    have hsplit := (Pipeline.arrays_of_unscopedBufs (pcfgs (F := F)) (adm m ρ) (dats m ρ hOk) (launch0 (F := F)).win (launch0 (F := F)).arr_whole (0 : Dev nD)
      ((dats m ρ hOk 0 0).share_full fun _ => rfl) (Vr m ρ 0) fun _ => rfl).trans
        (sep_mono .rfl ((Entails.of_eq (Pipeline.unscopedRest_split (launch0 (F := F)).pre (0 : Dev nD) (Vr m ρ 0))).trans
          (sep_mono .rfl (Entails.of_eq (unscopedRestP0_eq (0 : Dev nD) (Vr m ρ 0))))))
    iintro ⟨⟨Hub, HO⟩, Hos, -⟩
    ihave H := hsplit $$ Hub
    icases H with ⟨Ha, Hpf, H0, H1, Hv0, Hv1, Hv3⟩
    imodintro
    isplitl [Ha]; · iexact Ha
    isplitl [Hpf]; · iexact Hpf
    isplitl [HO]
    · icases HO with ⟨%W, HO⟩
      iapply (owesAt_intro (0 : Dev nD) (Vr m ρ 0) (hOk 0) (adm m ρ 0) 0 W); iexact HO
    isplitl [Hv0 Hv1 Hos]
    · isplitl [Hv0]; · iexact Hv0
      isplitl [Hv1]; · iexact Hv1
      iexact Hos
    isplitl [H0]; · iexact H0
    isplitl [H1]; · iexact H1
    iexact Hv3
  hin c := by
    have hc : c = 0 := Subsingleton.elim c 0
    subst hc
    rw [Φ_zero m ρ hOk 0, scopedRest0_eq, prefHeld_eq m ρ]
    iintro ⟨⟨Hv0, Hv1, ⟨Hd1, Hd2, Hd3, Hd4⟩⟩, ⟨Ht1, Ht2⟩, ⟨Hs0, Hs1, Hs2, Hs3, ⟨%f5, Hs5⟩⟩⟩
    ihave Hv0 := (v0_split (0 : Dev nD) _) $$ Hv0
    icases Hv0 with ⟨T1, T2, D3, T0⟩
    ihave Hv1 := (v1_split (0 : Dev nD) _) $$ Hv1
    icases Hv1 with ⟨U3, U4, E5, U0, U1, U2⟩
    isplitl [Ht1 Ht2 T1 T2 U3 U4 Hs0 Hs1 Hs2 Hs3 Hd1 Hd2 Hd3 Hd4]
    · isplitl [Ht1]; · iexact Ht1
      isplitl [Ht2]; · iexact Ht2
      isplitl [T1]; · iexact T1
      isplitl [T2]; · iexact T2
      isplitl [U3]; · iexact U3
      isplitl [U4]; · iexact U4
      isplitl [Hs0]; · iexact Hs0
      isplitl [Hs1]; · iexact Hs1
      isplitl [Hs2]; · iexact Hs2
      isplitl [Hs3]; · iexact Hs3
      isplitl [Hd1]; · iexact Hd1
      isplitl [Hd2]; · iexact Hd2
      isplitl [Hd3]; · iexact Hd3
      iexact Hd4
    isplitl [Hs5]
    · iexists _; rw [owns_whole_eq]; iexists f5; isplitr; (· ipureintro; rfl); iexact Hs5
    isplitl [D3]; · iexact D3
    isplitl [T0]; · iexact T0
    isplitl [E5]; · iexact E5
    isplitl [U0]; · iexact U0
    isplitl [U1]; · iexact U1
    iexact U2
  hout c := by
    refine (Φ_last m ρ hOk c).trans ?_
    rw [scopedRest0_eq, ownSems0_eq]
    simp only [owns_whole_eq]
    iintro ⟨⟨Ht1, Ht2, T1, T2, U3, U4, Hs0, Hs1, Hs2, Hs3, ⟨Hd1, Hd2, Hd3, Hd4⟩⟩, ⟨%a5, %f5, %hf5, Hs5⟩, ⟨D3, T0, E5, U0, U1, U2⟩⟩
    ihave Hv0 := (v0_join c _) $$ [T1 T2 D3 T0]
    · isplitl [T1]; · iexact T1
      isplitl [T2]; · iexact T2
      isplitl [D3]; · iexact D3
      iexact T0
    ihave Hv1 := (v1_join c _) $$ [U3 U4 E5 U0 U1 U2]
    · isplitl [U3]; · iexact U3
      isplitl [U4]; · iexact U4
      isplitl [E5]; · iexact E5
      isplitl [U0]; · iexact U0
      isplitl [U1]; · iexact U1
      iexact U2
    isplitl [Hv0 Hv1 Ht1 Ht2]
    · isplitl [Hv0]; · iexact Hv0
      isplitl [Hv1]; · iexact Hv1
      isplitl [Ht1]; · iexact Ht1
      iexact Ht2
    isplitl [Hd1 Hd2 Hd3 Hd4]
    · isplitl [Hd1]; · iexact Hd1
      isplitl [Hd2]; · iexact Hd2
      isplitl [Hd3]; · iexact Hd3
      iexact Hd4
    isplitl [Hs0]; · iexact Hs0
    isplitl [Hs1]; · iexact Hs1
    isplitl [Hs2]; · iexact Hs2
    isplitl [Hs3]; · iexact Hs3
    iexists f5; iexact Hs5
  hexit c := by
    rw [held_V2 m ρ hOk c, unscopedRestP0_eq c (Vr m ρ c),
      Pipeline.arrays_eq (Pipeline.pin (pcfgs (F := F)) (adm m ρ)) (dats m ρ hOk) 0 c (launch0 (F := F)).arr_whole ((dats m ρ hOk 0 c).share_full fun _ => rfl)]
    unfold Pipeline.arrPts
    iintro ⟨Ha, HO, ⟨Hv0, Hv1, Htab⟩, ⟨H0, H1, Hv3⟩⟩
    imodintro
    isplitr [HO Htab]
    · isplitl [Ha]; · iexact Ha
      isplitl [H0]; · iexact H0
      isplitl [H1]; · iexact H1
      isplitl [Hv0]; · iexact Hv0
      isplitl [Hv1]; · iexact Hv1
      iexact Hv3
    isplitl [Htab]; · iexact Htab
    unfold Pipeline.Dat.owesAt Pipeline.owesWithin
    icases HO with ⟨%W, -, HO⟩; iexists W; iexact HO

/-! ## The last host operation, and the run -/

/-- The last operation touches the region's result and the scalar result's buffer: no table. -/
theorem hostOps1_tail : ∀ op ∈ (hostOps1 : List (HloOp τ sig (Elt F))), op.bufs ⊆ Pipeline.tailRefs sig pre0 spec0 := by
  intro op hop
  refine Pipeline.sub_tailRefs pre0 spec0 op ((List.forall_iff_forall_mem.mp hostOps1_sub) op hop) fun k hk => ?_
  simp only [List.mem_cons, List.mem_nil_iff, or_false] at hop
  subst hop
  rw [StableHlo.reshape_bufs] at hk
  simp only [Finset.mem_insert, Finset.mem_singleton] at hk
  rcases hk with e | e <;> exact absurd (Proc.devRef_injective _ e) (by fin_cases k <;> decide)

/-- THE LAST HOST SEGMENT: the reshape of the region's result, over the buffers the region handed back. -/
def seg1 : Pipeline.HostSeg (Name := ℕ) (U := UC) (pcfgs (F := F)) defs₀ Variants.none L lv :=
  Pipeline.HostSeg.ofOps _ _ _ _ _ (Pipeline.tailRefs sig pre0 spec0) hostOps1 hostOps1_tail
    (by intro _ h; (repeat (cases h with | head => rfl | tail _ h => ?_)); exact nomatch h) (V2 m ρ hOk) (R1 m ρ)

/-- Core `c`'s buffers at the end. -/
abbrev V3 (c : Dev nD) : Valuation τ sig (Elt F) := StableHlo.after hostOps1 (V2 m ρ hOk c)

/-- A buffer no operation writes and the region does not write ends as launched. -/
theorem V3_keep (c : Dev nD) (b : Ref sig .tc) (h0 : b ≠ main_v0) (h1 : b ≠ main_v1) (h2 : b ≠ main_v2) (h3 : b ≠ main_v3) :
    V3 m ρ hOk c (Proc.devRef .tc b) = m ((c : Thread nD τ).loc b) := by
  have e3 : V3 m ρ hOk c (Proc.devRef .tc b) = V2 m ρ hOk c (Proc.devRef .tc b) :=
    StableHlo.after_of_forall_not_mem (b := Proc.devRef .tc b) hostOps1 _ fun op hop => by
      simp only [List.mem_cons, List.mem_nil_iff, or_false] at hop
      subst hop
      rw [StableHlo.reshape_writes, Finset.mem_singleton]
      exact StableHlo.devRef_ne_of_ne h3
  have e2 : V2 m ρ hOk c (Proc.devRef .tc b) = V1 m ρ c (Proc.devRef .tc b) :=
    Pipeline.withArrays_of_ne spec0 c _ _ b fun w e => h2 (e.symm.trans (by fin_cases w; rfl))
  have e1 : V1 m ρ c (Proc.devRef .tc b) = V₀ m ρ c (Proc.devRef .tc b) :=
    StableHlo.after_of_forall_not_mem (b := Proc.devRef .tc b) hostOps0 _ fun op hop => by
      simp only [List.mem_cons, List.mem_nil_iff, or_false] at hop
      rcases hop with rfl | rfl <;> rw [StableHlo.reshape_writes, Finset.mem_singleton]
      · exact StableHlo.devRef_ne_of_ne h0
      · exact StableHlo.devRef_ne_of_ne h1
  exact e3.trans (e2.trans e1)

/-- A table is as launched when the region is entered. -/
theorem Vr_keep (c : Dev nD) (b : Ref sig .tc) (h0 : b ≠ main_v0) (h1 : b ≠ main_v1) :
    Vr m ρ c b = m ((c : Thread nD τ).loc b) :=
  StableHlo.after_of_forall_not_mem (b := Proc.devRef .tc b) hostOps0 _ fun op hop => by
    simp only [List.mem_cons, List.mem_nil_iff, or_false] at hop
    rcases hop with rfl | rfl <;> rw [StableHlo.reshape_writes, Finset.mem_singleton]
    · exact StableHlo.devRef_ne_of_ne h0
    · exact StableHlo.devRef_ne_of_ne h1

/-- What is left for the end: the buffers the last operation ran within, and the two tables. -/
abbrev Tₙ (c : Dev nD) : sProp 𝕄 :=
  iprop(StableHlo.held (c : Thread nD τ) (Pipeline.tailRefs sig pre0 spec0) (V3 m ρ hOk c) ∗ tabs m ρ c)

/-- @main as the list of the three. -/
abbrev segs : List (Pipeline.Seg (pcfgs (F := F)) (adm m ρ) (dats m ρ hOk) () defs₀ Variants.none L lv) :=
  [.host (seg0 m ρ), .region (reg0 m ρ hOk), .host (seg1 m ρ hOk)]

/-- The launch element: the pipeline library's at the staging cell; no counter yet. -/
def u₀ : UC := (initOf (Pipeline.cells (Pipeline.pin (pcfgs (F := F)) (adm m ρ)) (cellOf_inj (adm m ρ)))
  (Pipeline.launchToks (Pipeline.pin (pcfgs (F := F)) (adm m ρ)) (cellOf_inj (adm m ρ))), 1)

/-- The physical post: the scalar result at the last operation's value, the four arguments as launched. -/
def QC : PUnit × MemSt nD τ sig (Elt F) → Prop := fun r =>
  ∀ c : Dev nD, r.2.mem ((c : Thread nD τ).loc main_v3) = V3 m ρ hOk c (Proc.devRef .tc main_v3)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

set_option backward.isDefEq.respectTransparency.types false in
/-- At the compiled mesh, from any memory with zero counters whose tables pass the body's side conditions: every weakly
    fair execution of @main on the TensorCores terminates, and every final state has the scalar result at the last
    operation's value and the four arguments unchanged. -/
theorem run_main : θ_run defs (onTc (τ := τ) (main (F := F))) (s₀ m ρ) (QC m ρ hOk) :=
  Pipeline.θ_run_regions_kit (pcfgs (F := F)) (adm m ρ) (dats m ρ hOk) () (cellOf_inj (adm m ρ)) EP defs₀ Variants.none L lv m ρ main (segs m ρ hOk)
    (fun c Q => by rw [main_segs (adm m ρ) (dats m ρ hOk) () Variants.none L lv (seg0 m ρ) (seg1 m ρ hOk) (reg0 m ρ hOk) rfl rfl c])
    (by simp only [Pipeline.Seg.pipes_host, Pipeline.Seg.pipes_region, Pipeline.Seg.pipes_nil]; decide) (O₀ := 0) (hL := fun _ _ => rfl) (G := fun _ => iprop(emp)) (u₀ := u₀ m ρ)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ hOk)
    (hch := ⟨fun _ => .rfl, fun _ => .rfl, fun _ => .rfl, fun c => by
      show iprop(StableHlo.held (c : Thread nD τ) (Pipeline.tailRefs sig pre0 spec0) (V3 m ρ hOk c) ∗ R1 m ρ c) ⊢ _
      iintro ⟨Hh, Ht, HO⟩
      isplitr [HO]
      · isplitl [Hh] <;> iassumption
      · iexact HO⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v3) = V3 m ρ hOk c (Proc.devRef .tc main_v3)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3))
    (hfin := fun c s' => by
      dsimp only [Tₙ, tabs, pt]
      rw [Pipeline.held_tailRefs pre0 spec0 (launch0 (F := F)).win.arr_inj c (V3 m ρ hOk c),
        unscopedRestP0_eq c (fun b => V3 m ρ hOk c (Proc.devRef .tc b)),
        V3_keep m ρ hOk c main_arg0 (by decide) (by decide) (by decide) (by decide),
        V3_keep m ρ hOk c main_arg1 (by decide) (by decide) (by decide) (by decide),
        Vr_keep m ρ c main_arg2 (by decide) (by decide), Vr_keep m ρ c main_arg3 (by decide) (by decide)]
      iintro ⟨⟨⟨-, H0, H1, -, -, H3⟩, H2a, H3a⟩, HSI⟩
      icombine HSI H0 gives %h0
      icombine HSI H1 gives %h1
      icombine HSI H3 gives %h3
      icombine HSI H2a gives %h2a
      icombine HSI H3a gives %h3a
      imodintro
      isplitr
      · ipureintro
        exact ⟨Buf.eq_of_forall_mem_univ h3, Buf.eq_of_forall_mem_univ h0, Buf.eq_of_forall_mem_univ h1,
          Buf.eq_of_forall_mem_univ h2a, Buf.eq_of_forall_mem_univ h3a⟩
      iexact HSI)
    (hQ := fun _ h => h)

/-- info: 'Cert.Proof.KI.run_main' depends on axioms: [propext, Classical.choice, Quot.sound] -/
#guard_msgs in #print axioms run_main

end Cert.Proof.KI

end
-- ==== Proof.KIOk.lean ====
import proofs.«404213_j10849087389931_2_alg».proof.Proof.KIBody
import proofs.«404213_j10849087389931_2_alg».proof.Proof.Spec
import Idealize.ShloMosaic.Lib.ValueIdx

/-!
# The body's side conditions from the tables' range

Point `t` of the grid reads word `t` of each table, and the body's side condition on a word `w` is that the column
`[0, 0, w]` of extent `[4, 256, 1]` lies inside the `[4, 256, 65536]` array: `w < 65536`.
-/

noncomputable section

namespace Cert.Proof.KI

open Cert.KernelIdeal Cert.KernelIdeal.Gen
open Idealize.ShloMosaic Idealize.ShloMosaic.TcCoe ValueIdx

variable {F : FTy → Type} [FloatOps F]

/-- At grid point `t` the table offset the kernel computes is `t`. -/
theorem tblOff_eq : ∀ t : Fin grid0.N, k0_off1 (grid0.coords t) = ![t.val] := by
  decide +kernel

omit [FloatOps F] in
/-- The word point `t` reads from the first table is the table's word `t`; -/
theorem word1_at (c : Dev nD) (t : Fin grid0.N) (i1 : Bf (F := F) c (Memref.whole main_arg2)) :
    word1 c t i1 = i1 (ix1 ⟨t.val, t.isLt⟩) := by
  show i1 ((Rect.unit (s := S256) (k0_off1 (grid0.coords t)) S1.size (k0_off1_inb (grid0.coords t))).emb (Shape.Idx.first (numel1_S1.symm ▸ Nat.one_pos))) = _
  congr 1
  funext a
  apply Fin.ext
  rw [Rect.emb_apply]
  match a with
  | ⟨0, _⟩ =>
    have hj : ((Shape.Idx.first (numel1_S1.symm ▸ Nat.one_pos) : S1.Idx) 0).val < 1 := ((Shape.Idx.first (numel1_S1.symm ▸ Nat.one_pos) : S1.Idx) 0).isLt
    have ho : k0_off1 (grid0.coords t) 0 = t.val := congrFun (tblOff_eq t) 0
    show k0_off1 (grid0.coords t) 0 + 1 * ((Shape.Idx.first (numel1_S1.symm ▸ Nat.one_pos) : S1.Idx) 0).val = t.val
    omega

omit [FloatOps F] in
/-- and from the second. -/
theorem word2_at (c : Dev nD) (t : Fin grid0.N) (i2 : Bf (F := F) c (Memref.whole main_arg3)) :
    word2 c t i2 = i2 (ix1 ⟨t.val, t.isLt⟩) := by
  show i2 ((Rect.unit (s := S256) (k0_off1 (grid0.coords t)) S1.size (k0_off1_inb (grid0.coords t))).emb (Shape.Idx.first (numel1_S1.symm ▸ Nat.one_pos))) = _
  congr 1
  funext a
  apply Fin.ext
  rw [Rect.emb_apply]
  match a with
  | ⟨0, _⟩ =>
    have hj : ((Shape.Idx.first (numel1_S1.symm ▸ Nat.one_pos) : S1.Idx) 0).val < 1 := ((Shape.Idx.first (numel1_S1.symm ▸ Nat.one_pos) : S1.Idx) 0).isLt
    have ho : k0_off1 (grid0.coords t) 0 = t.val := congrFun (tblOff_eq t) 0
    show k0_off1 (grid0.coords t) 0 + 1 * ((Shape.Idx.first (numel1_S1.symm ▸ Nat.one_pos) : S1.Idx) 0).val = t.val
    omega

omit [FloatOps F] in
/-- A word below 65536 names a column inside the array. -/
theorem col_inb (w : BitVec 32) (h : w.toNat < 65536) (a : Fin 3) :
    (![0, 0, w.toNat] : Fin 3 → ℕ) a + S4x256x1.size a ≤ S4x256x65536.size a := by
  match a with
  | ⟨0, _⟩ => show 0 + 4 ≤ 4; omega
  | ⟨1, _⟩ => show 0 + 256 ≤ 256; omega
  | ⟨2, _⟩ => show w.toNat + 1 ≤ 65536; omega

omit [FloatOps F] in
/-- Tables whose every word is a pixel position pass the body's side conditions at every point. -/
theorem ok_of_inRange (c : Dev nD) (i1 : Bf (F := F) c (Memref.whole main_arg2)) (i2 : Bf (F := F) c (Memref.whole main_arg3))
    (h1 : Spec.InRange i1) (h2 : Spec.InRange i2) : Ok c i1 i2 := fun t => by
  constructor
  · rw [word1_at]
    exact ⟨col_inb _ (h1 ⟨t.val, t.isLt⟩), col_inb _ (h1 ⟨t.val, t.isLt⟩)⟩
  · rw [word2_at]
    exact col_inb _ (h2 ⟨t.val, t.isLt⟩)

end Cert.Proof.KI

end
-- ==== Proof.KIFinal.lean ====
import proofs.«404213_j10849087389931_2_alg».proof.Proof.KILaunch
import Idealize.ShloMosaic.Lib.Pipeline.Value

/-!
# What the scalar result holds

The output's `[1, 1, 1]` array is written back once, at the last grid point, with what the body stored there: the final
accumulator times `2⁻¹⁰`. The last host operation reshapes it to the scalar result.
-/

noncomputable section

namespace Cert.Proof.KI

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg) (hOk : OkAll m ρ)

/-- A `[1, 1, 1]` array has one index. -/
instance subsingleton_idx111 : Subsingleton S1x1x1.Idx :=
  ⟨fun x y => funext fun a => by fin_cases a <;> exact Subsingleton.elim (α := Fin 1) _ _⟩

section Final
variable (c : Dev nD) (Vc : (b : Ref sig .tc) → Buf (Elt F) ((c : Thread nD τ).loc b)) (hk : Ok c (tI1 c Vc) (tI2 c Vc)) (a : (pcfg0 (F := F)).Adm)

theorem after_last (t : Fin (cfg0 a).N) (h : t.val = 255) : (dat c Vc hk a).after 0 t = outV (aX1 c Vc) (aX2 c Vc) hk := by
  have key : ∀ (k : ℕ) (hk1 : k < grid0.N) (hk2 : 255 < grid0.N), k = 255 →
      accA (aX1 c Vc) (aX2 c Vc) hk k hk1 = accA (aX1 c Vc) (aX2 c Vc) hk 255 hk2 := by
    intro k hk1 hk2 e; subst e; rfl
  show k0_pay2 (accA (aX1 c Vc) (aX2 c Vc) hk t.val t.isLt) = k0_pay2 (accA (aX1 c Vc) (aX2 c Vc) hk 255 _)
  exact congrArg k0_pay2 (key _ _ _ h)

theorem flushed_last (t : Fin (cfg0 a).N) (h : t.val = 255) (y : (((cfg0 a).win 0).xblock ((cfg0 a).grid.coords t)).Idx) :
    (dat c Vc hk a).flushed 0 t y = View.read (Elt F) (((cfg0 a).win 0).blk t).view (outV (aX1 c Vc) (aX2 c Vc) hk) y := by
  show (dat c Vc hk a).after 0 t (((cfg0 a).win 0).xinj ((cfg0 a).grid.coords t) y)
    = (outV (aX1 c Vc) (aX2 c Vc) hk : S1x1x1.Idx → F .f32) ((((cfg0 a).win 0).blk t).view.emb y)
  rw [after_last c Vc hk a t h]
  exact congrArg (outV (aX1 c Vc) (aX2 c Vc) hk : S1x1x1.Idx → F .f32) (subsingleton_idx111.elim _ _)

/-- The output's array after the pipeline's run is what the last point stored (whatever the tables' contents the
    pipeline is pinned at). -/
theorem arrAt_final : (dat c Vc hk a).arrAt 0 (cfg0 a).N = outV (aX1 c Vc) (aX2 c Vc) hk := by
  refine (dat c Vc hk a).arrAt_eq_of_cover 0 _ (fun t hf => ?_) (fun i => ?_)
  · funext y
    exact flushed_last c Vc hk a t ((flush_iff a t).mp hf) y
  · refine ⟨⟨255, (show (255 : ℕ) < grid0.N from by decide)⟩, (flush_iff a _).mpr rfl, ?_⟩
    have hpos : 0 < (((cfg0 a).win 0).xblock ((cfg0 a).grid.coords ⟨255, (show (255 : ℕ) < grid0.N from by decide)⟩)).numel :=
      Nat.pos_of_ne_zero fun h => (block_pos0 0).ne' ((((cfg0 a).win 0).xblock_numel_eq_zero_iff _).mp h)
    have hx := (((cfg0 a).win 0).blk ⟨255, (show (255 : ℕ) < grid0.N from by decide)⟩).view.emb_mem_set (Shape.Idx.first hpos)
    exact (subsingleton_idx111.elim _ i) ▸ hx

end Final

/-- The output's array after the region is what the last point stored. -/
theorem Aout_eq (c : Dev nD) : Aout m ρ hOk c 0 = outV (aX1 c (Vr m ρ c)) (aX2 c (Vr m ρ c)) (hOk c) :=
  arrAt_final c (Vr m ρ c) (hOk c) (adm m ρ 0)

/-- The scalar result is the reshape of the output's array. -/
theorem V3_out (c : Dev nD) :
    V3 m ρ hOk c (Proc.devRef .tc main_v3) = shapeCast S_ (Aout m ρ hOk c 0) shapeCasts_S1x1x1_S_ := by
  show StableHlo.after hostOps1 (V2 m ρ hOk c) (Proc.devRef .tc main_v3) = _
  after_results
  rw [show V2 m ρ hOk c (Proc.devRef .tc main_v2) = Aout m ρ hOk c 0 from
    Pipeline.withArrays_arr spec0 (launch0 (F := F)).win.arr_inj c (V1 m ρ c) (Aout m ρ hOk c) 0]
  rfl

/-- The two flattened arrays, when the region is entered, are the reshapes of the two arguments. -/
theorem Vr_v0 (c : Dev nD) :
    Vr m ρ c main_v0 = shapeCast S4x256x65536 (m ((c : Thread nD τ).loc main_arg0)) shapeCasts_S4x256x256x256_S4x256x65536 := by
  show StableHlo.after hostOps0 (V₀ m ρ c) (Proc.devRef .tc main_v0) = _
  after_results
  rfl
theorem Vr_v1 (c : Dev nD) :
    Vr m ρ c main_v1 = shapeCast S4x256x65536 (m ((c : Thread nD τ).loc main_arg1)) shapeCasts_S4x256x256x256_S4x256x65536 := by
  show StableHlo.after hostOps0 (V₀ m ρ c) (Proc.devRef .tc main_v1) = _
  after_results
  rfl

end Cert.Proof.KI

end
-- ==== Proof.KIValue.lean ====
import proofs.«404213_j10849087389931_2_alg».proof.Proof.KIBody
import proofs.«404213_j10849087389931_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.Proof.KI

open Cert.KernelIdeal Cert.KernelIdeal.Gen
open Idealize.ShloMosaic Idealize.ShloMosaic.TcCoe ValueIdx

/-- At grid point t the kernel's table offset is t. -/
theorem off1_eq : ∀ t : Fin grid0.N, k0_off1 (grid0.coords t) = ![t.val] := by
  decide +kernel

/-- A one-word read of the first table at offset n reads the table's word n. -/
theorem word1_read (c : Dev nD) (i1 : Bf (F := Ideal) c (Memref.whole main_arg2)) (off : Fin 1 → ℕ)
    (h : ∀ a, off a + S1.size a ≤ S256.size a) (n : Fin 256) (h0 : off 0 = n.val) (j : S1.Idx) :
    (Memref.whole main_arg2).view.readAt (Elt Ideal) (Rect.unit (s := S256) off S1.size h).toLoadRect i1 j = i1 (ix1 n) := by
  show i1 ((Rect.unit (s := S256) off S1.size h).emb j) = _
  congr 1
  funext a
  apply Fin.ext
  rw [Rect.emb_apply]
  match a with
  | ⟨0, _⟩ =>
    have hj : (j 0).val < 1 := (j 0).isLt
    show off 0 + 1 * (j 0).val = n.val
    omega

/-- The same for the second table. -/
theorem word2_read (c : Dev nD) (i2 : Bf (F := Ideal) c (Memref.whole main_arg3)) (off : Fin 1 → ℕ)
    (h : ∀ a, off a + S1.size a ≤ S256.size a) (n : Fin 256) (h0 : off 0 = n.val) (j : S1.Idx) :
    (Memref.whole main_arg3).view.readAt (Elt Ideal) (Rect.unit (s := S256) off S1.size h).toLoadRect i2 j = i2 (ix1 n) := by
  show i2 ((Rect.unit (s := S256) off S1.size h).emb j) = _
  congr 1
  funext a
  apply Fin.ext
  rw [Rect.emb_apply]
  match a with
  | ⟨0, _⟩ =>
    have hj : (j 0).val < 1 := (j 0).isLt
    show off 0 + 1 * (j 0).val = n.val
    omega

/-- The word point t reads from the first table is the table's word t. -/
theorem word1_eq (c : Dev nD) (t : Fin grid0.N) (i1 : Bf (F := Ideal) c (Memref.whole main_arg2)) :
    word1 (F := Ideal) c t i1 = i1 (ix1 ⟨t.val, t.isLt⟩) :=
  word1_read c i1 _ _ ⟨t.val, t.isLt⟩ (congrFun (off1_eq t) 0) _

/-- The word point t reads from the second table is the table's word t. -/
theorem word2_eq (c : Dev nD) (t : Fin grid0.N) (i2 : Bf (F := Ideal) c (Memref.whole main_arg3)) :
    word2 (F := Ideal) c t i2 = i2 (ix1 ⟨t.val, t.isLt⟩) :=
  word2_read c i2 _ _ ⟨t.val, t.isLt⟩ (congrFun (off1_eq t) 0) _

/-- A column of the first array read at batch row b and channel ch is the array at (b, ch, the pixel). -/
theorem colOf_apply0 (c : Dev nD) (x : Bf (F := Ideal) c (Memref.whole main_v0)) (off : Fin 3 → ℕ)
    (h : ∀ a, off a + S4x256x1.size a ≤ S4x256x65536.size a) (p : Fin 65536)
    (h0 : off 0 = 0) (h1 : off 1 = 0) (h2 : off 2 = p.val) (b : Fin 4) (ch : Fin 256) :
    colOf (F := Ideal) c (Memref.whole main_v0) x off h (ix3 b ch 0) = x (ix3 b ch p) := by
  show x ((Rect.unit (s := S4x256x65536) off S4x256x1.size h).emb (ix3 b ch 0)) = _
  congr 1
  funext a
  apply Fin.ext
  rw [Rect.emb_apply]
  match a with
  | ⟨0, _⟩ => show off 0 + 1 * b.val = b.val; omega
  | ⟨1, _⟩ => show off 1 + 1 * ch.val = ch.val; omega
  | ⟨2, _⟩ => show off 2 + 1 * 0 = p.val; omega

/-- The same for the second array. -/
theorem colOf_apply1 (c : Dev nD) (x : Bf (F := Ideal) c (Memref.whole main_v1)) (off : Fin 3 → ℕ)
    (h : ∀ a, off a + S4x256x1.size a ≤ S4x256x65536.size a) (p : Fin 65536)
    (h0 : off 0 = 0) (h1 : off 1 = 0) (h2 : off 2 = p.val) (b : Fin 4) (ch : Fin 256) :
    colOf (F := Ideal) c (Memref.whole main_v1) x off h (ix3 b ch 0) = x (ix3 b ch p) := by
  show x ((Rect.unit (s := S4x256x65536) off S4x256x1.size h).emb (ix3 b ch 0)) = _
  congr 1
  funext a
  apply Fin.ext
  rw [Rect.emb_apply]
  match a with
  | ⟨0, _⟩ => show off 0 + 1 * b.val = b.val; omega
  | ⟨1, _⟩ => show off 1 + 1 * ch.val = ch.val; omega
  | ⟨2, _⟩ => show off 2 + 1 * 0 = p.val; omega

/-- The channel-axis dot product of two columns at batch row b. -/
def dotc (A B : FVec Ideal S4x256x1 .f32) (b : Fin 4) : EReal := ∑ ch : Fin 256, A (ix3 b ch 0) * B (ix3 b ch 0)

/-- The cosine similarity of two columns at batch row b. -/
def cosc (A B : FVec Ideal S4x256x1 .f32) (b : Fin 4) : EReal :=
  Ideal.div (dotc A B b) (max (Ideal.sqrt (dotc A A b) * Ideal.sqrt (dotc B B b)) Spec.epsV)

/-- The index over (b, 0) with channel k inserted on the reduced axis is (b, k, 0). -/
theorem lift_ch (b : Fin 4) (k : Fin 256) : reduces_S4x256x1_S4x1.lift (ix2 b 0) k = ix3 b k 0 := by
  funext a
  apply Fin.ext
  match a with
  | ⟨0, _⟩ => rfl
  | ⟨1, _⟩ => rfl
  | ⟨2, _⟩ => rfl

/-- The sum over the channel axis, kept as a unit axis, at batch row b. -/
theorem chanSum_apply (V : FVec Ideal S4x256x1 .f32) (hφ : FKind.Formats .f32) (hacc : (0x00000000#32 : BitVec 32) = 0x00000000#32) (b : Fin 4) :
    shapeCast S4x1x1 (multiReduction (F := Ideal) .add [1] S4x1 V 0x00000000#32 reduces_S4x256x1_S4x1 hφ hacc) shapeCasts_S4x1_S4x1x1 (ix3 b 0 0)
      = ∑ ch : Fin 256, V (ix3 b ch 0) := by
  refine (shapeCast_apply _ _ (ix3 b 0 0) (ix2 b 0) ?_).trans ?_
  · rw [Shape.rowMajor_val_two, Shape.rowMajor_val_three]
    show b.val * 1 + 0 = (b.val * 1 + 0) * 1 + 0
    omega
  refine (Ideal.multiReduction_add_single V 0x00000000#32 reduces_S4x256x1_S4x1 hφ hacc (ix2 b 0)).trans ?_
  exact Finset.sum_congr rfl fun k _ => congrArg V (lift_ch b k)

/-- The second pair's dot product, at batch row b. -/
theorem pay5_apply (A B : Vec Ideal S4x256x1 .f32) (b : Fin 4) :
    k0_pay5 (F := Ideal) A B (ix3 b 0 0) = dotc A B b := by
  unfold k0_pay5
  dsimp only
  rw [chanSum_apply]
  rfl

/-- The second pair's product of norms, at batch row b. -/
theorem pay6_apply (A B : Vec Ideal S4x256x1 .f32) (b : Fin 4) :
    k0_pay6 (F := Ideal) A B (ix3 b 0 0) = Ideal.sqrt (dotc A A b) * Ideal.sqrt (dotc B B b) := by
  unfold k0_pay6
  dsimp only
  rw [mulf_apply]
  show Ideal.sqrt (shapeCast S4x1x1 _ _ (ix3 b 0 0)) * Ideal.sqrt (shapeCast S4x1x1 _ _ (ix3 b 0 0)) = _
  rw [chanSum_apply, chanSum_apply]
  rfl

/-- The first pair's cosine similarity, at batch row b. -/
theorem pay4_apply (A B : Vec Ideal S4x256x1 .f32) (b : Fin 4) :
    k0_pay4 (F := Ideal) A B (ix3 b 0 0) = cosc A B b := by
  unfold k0_pay4
  dsimp only
  rw [divf_apply, maximumf_apply, mulf_apply, broadcast_apply]
  show Ideal.div (shapeCast S4x1x1 _ _ (ix3 b 0 0))
    (max (Ideal.sqrt (shapeCast S4x1x1 _ _ (ix3 b 0 0)) * Ideal.sqrt (shapeCast S4x1x1 _ _ (ix3 b 0 0))) _) = _
  rw [chanSum_apply, chanSum_apply, chanSum_apply]
  rfl

/-- The index over (0, 0) with batch row k inserted on the reduced axis is (k, 0, 0). -/
theorem lift_b (k : Fin 4) : reduces_S4x1x1_S1x1.lift (ix2 0 0) k = ix3 k 0 0 := by
  funext a
  apply Fin.ext
  match a with
  | ⟨0, _⟩ => rfl
  | ⟨1, _⟩ => rfl
  | ⟨2, _⟩ => rfl

/-- The sum over the batch axis, kept as a unit axis, at the one index. -/
theorem batchSum_apply (V : FVec Ideal S4x1x1 .f32) (hφ : FKind.Formats .f32) (hacc : (0x00000000#32 : BitVec 32) = 0x00000000#32) :
    shapeCast S1x1x1 (multiReduction (F := Ideal) .add [0] S1x1 V 0x00000000#32 reduces_S4x1x1_S1x1 hφ hacc) shapeCasts_S1x1_S1x1x1 (ix3 0 0 0)
      = ∑ b : Fin 4, V (ix3 b 0 0) := by
  refine (shapeCast_apply _ _ (ix3 0 0 0) (ix2 0 0) ?_).trans ?_
  · rw [Shape.rowMajor_val_two, Shape.rowMajor_val_three]
    rfl
  refine (Ideal.multiReduction_add_single V 0x00000000#32 reduces_S4x1x1_S1x1 hφ hacc (ix2 0 0)).trans ?_
  exact Finset.sum_congr rfl fun k _ => congrArg V (lift_b k)

/-- The step's last stretch: the accumulator plus the batch sum of the absolute differences, the second cosine formed from its dot product and norm product. -/
theorem pay1_apply (v49 v52 v61 : FVec Ideal S4x1x1 .f32) (e : Ideal .f32) (a : Vec Ideal S1x1x1 .f32) :
    k0_pay1 (F := Ideal) v49 v52 v61 e a (ix3 0 0 0)
      = a (ix3 0 0 0) + ∑ b : Fin 4,
          max (v49 (ix3 b 0 0) - Ideal.div (v52 (ix3 b 0 0)) (max (v61 (ix3 b 0 0)) e))
            (-(v49 (ix3 b 0 0) - Ideal.div (v52 (ix3 b 0 0)) (max (v61 (ix3 b 0 0)) e))) := by
  unfold k0_pay1
  dsimp only
  rw [shapeCast_self, addf_apply, batchSum_apply]
  rfl

/-- One step over four columns: the accumulator plus the batch sum of the absolute differences of the two cosine similarities. -/
theorem stepv_apply (a : Vec Ideal S1x1x1 .f32) (C0 C1 C2 C3 : Vec Ideal S4x256x1 .f32) :
    stepv (F := Ideal) a C0 C1 C2 C3 (ix3 0 0 0)
      = a (ix3 0 0 0) + ∑ b : Fin 4, max (cosc C0 C1 b - cosc C2 C3 b) (-(cosc C0 C1 b - cosc C2 C3 b)) := by
  unfold stepv
  rw [pay1_apply]
  congr 1
  refine Finset.sum_congr rfl fun b _ => ?_
  rw [pay4_apply, pay5_apply, pay6_apply]
  rfl

/-- The word 0x44800000 denotes 1024. -/
theorem ofBits_1024 : Ideal.ofBits .f32 0x44800000#32 = ((1024 : ℝ) : EReal) := by
  simp [Ideal.ofBits, Ideal.ieee, -EReal.coe_mul]; norm_num

/-- The word 0x3A800000 denotes 1/1024. -/
theorem ofBits_inv1024 : Ideal.ofBits .f32 0x3A800000#32 = ((1 / 1024 : ℝ) : EReal) := by
  simp [Ideal.ofBits, Ideal.ieee, -EReal.coe_mul]; norm_num

/-- The initial accumulator is zero. -/
theorem pay3_apply : (k0_pay3 (F := Ideal)) (ix3 0 0 0) = 0 := by
  unfold k0_pay3
  rw [shapeCast_self, broadcast_apply]
  exact Ideal.ofBits_zero_f32

/-- The stored value: the accumulator times 1/1024 is the accumulator divided by 1024. -/
theorem pay2_apply (V : Vec Ideal S1x1x1 .f32) :
    k0_pay2 (F := Ideal) V (ix3 0 0 0) = Ideal.div (V (ix3 0 0 0)) Spec.cntV := by
  unfold k0_pay2
  rw [mulf_apply, broadcast_apply]
  show V (ix3 0 0 0) * Ideal.ofBits .f32 0x3A800000#32 = Ideal.div _ (Ideal.ofBits .f32 0x44800000#32)
  rw [ofBits_1024, ofBits_inv1024, Ideal.div_coe (by norm_num)]

/-- Columns that are the pixel columns p and q of an array have that array's dot product. -/
theorem dotc_cols (X : Spec.SF.Idx → EReal) (A B : Vec Ideal S4x256x1 .f32) (p q : Fin 65536)
    (hA : ∀ b ch, A (ix3 b ch 0) = X (ix3 b ch p)) (hB : ∀ b ch, B (ix3 b ch 0) = X (ix3 b ch q)) (b : Fin 4) :
    dotc A B b = Spec.dot3 X b p q :=
  Finset.sum_congr rfl fun ch _ => by rw [hA, hB]

/-- … and its cosine similarity. -/
theorem cosc_cols (X : Spec.SF.Idx → EReal) (A B : Vec Ideal S4x256x1 .f32) (p q : Fin 65536)
    (hA : ∀ b ch, A (ix3 b ch 0) = X (ix3 b ch p)) (hB : ∀ b ch, B (ix3 b ch 0) = X (ix3 b ch q)) (b : Fin 4) :
    cosc A B b = Spec.cosv X b p q := by
  unfold cosc Spec.cosv
  rw [dotc_cols X A B p q hA hB, dotc_cols X A A p p hA hA, dotc_cols X B B q q hB hB]

/-- A step over the pixel columns p and q of the two arrays adds the batch sum of the specification's terms there. -/
theorem stepv_cols (X1 X2 : Spec.SF.Idx → EReal) (a : Vec Ideal S1x1x1 .f32) (C0 C1 C2 C3 : Vec Ideal S4x256x1 .f32) (p q : Fin 65536)
    (h0 : ∀ b ch, C0 (ix3 b ch 0) = X1 (ix3 b ch p)) (h1 : ∀ b ch, C1 (ix3 b ch 0) = X1 (ix3 b ch q))
    (h2 : ∀ b ch, C2 (ix3 b ch 0) = X2 (ix3 b ch p)) (h3 : ∀ b ch, C3 (ix3 b ch 0) = X2 (ix3 b ch q)) :
    stepv (F := Ideal) a C0 C1 C2 C3 (ix3 0 0 0) = a (ix3 0 0 0) + ∑ b : Fin 4, Spec.term X1 X2 b p q := by
  rw [stepv_apply]
  refine congrArg (a (ix3 0 0 0) + ·) (Finset.sum_congr rfl fun b _ => ?_)
  rw [cosc_cols X1 C0 C1 p q h0 h1, cosc_cols X2 C2 C3 p q h2 h3]
  rfl

/-- One point's step: the accumulator plus the batch sum of the specification's terms at the two words' pixels. -/
theorem stepAt_apply (c : Dev nD) (t : Fin grid0.N) (i1 : Bf (F := Ideal) c (Memref.whole main_arg2)) (i2 : Bf (F := Ideal) c (Memref.whole main_arg3))
    (x1 : Bf (F := Ideal) c (Memref.whole main_v0)) (x2 : Bf (F := Ideal) c (Memref.whole main_v1))
    (hk1 : k0_chk1 (word1 c t i1)) (hk2 : k0_chk2 (word2 c t i2)) (hr1 : Spec.InRange i1) (hr2 : Spec.InRange i2)
    (a : Vec Ideal S1x1x1 .f32) :
    stepAt (F := Ideal) c t i1 i2 x1 x2 hk1 hk2 a (ix3 0 0 0)
      = a (ix3 0 0 0) + ∑ b : Fin 4, Spec.term x1 x2 b (Spec.pos (i1 (ix1 ⟨t.val, t.isLt⟩))) (Spec.pos (i2 (ix1 ⟨t.val, t.isLt⟩))) := by
  have hp : (word1 (F := Ideal) c t i1).toNat = (Spec.pos (i1 (ix1 ⟨t.val, t.isLt⟩))).val := by
    rw [word1_eq, Spec.pos_val_of_lt (hr1 ⟨t.val, t.isLt⟩)]
  have hq : (word2 (F := Ideal) c t i2).toNat = (Spec.pos (i2 (ix1 ⟨t.val, t.isLt⟩))).val := by
    rw [word2_eq, Spec.pos_val_of_lt (hr2 ⟨t.val, t.isLt⟩)]
  exact stepv_cols x1 x2 a _ _ _ _ _ _
    (colOf_apply0 c x1 (k0_off2 (word1 c t i1)) (k0_off2_inb _ hk1) (Spec.pos (i1 (ix1 ⟨t.val, t.isLt⟩))) rfl rfl hp)
    (colOf_apply0 c x1 (k0_off3 (word2 c t i2)) (k0_off3_inb _ hk2) (Spec.pos (i2 (ix1 ⟨t.val, t.isLt⟩))) rfl rfl hq)
    (colOf_apply1 c x2 (k0_off4 (word1 c t i1)) (k0_off4_inb _ hk1) (Spec.pos (i1 (ix1 ⟨t.val, t.isLt⟩))) rfl rfl hp)
    (colOf_apply1 c x2 (k0_off3 (word2 c t i2)) (k0_off3_inb _ hk2) (Spec.pos (i2 (ix1 ⟨t.val, t.isLt⟩))) rfl rfl hq)

/-- The batch sum of the specification's terms at sample n. -/
def sampleTerm (x1 x2 : Spec.SF.Idx → EReal) (i1 i2 : Spec.ST.Idx → BitVec 32) (n : Fin 256) : EReal :=
  ∑ b : Fin 4, Spec.term x1 x2 b (Spec.pos (i1 (ix1 n))) (Spec.pos (i2 (ix1 n)))

/-- The accumulator after point k is the partial sum of the samples' terms up to k. -/
theorem accA_apply (c : Dev nD) (i1 : Bf (F := Ideal) c (Memref.whole main_arg2)) (i2 : Bf (F := Ideal) c (Memref.whole main_arg3))
    (x1 : Bf (F := Ideal) c (Memref.whole main_v0)) (x2 : Bf (F := Ideal) c (Memref.whole main_v1))
    (hk : Ok c i1 i2) (hr1 : Spec.InRange i1) (hr2 : Spec.InRange i2) :
    ∀ (k : ℕ) (h : k < grid0.N), accA (F := Ideal) x1 x2 hk k h (ix3 0 0 0)
      = ∑ n : Fin (k + 1), sampleTerm x1 x2 i1 i2 ⟨n.val, Nat.lt_of_lt_of_le n.isLt h⟩ := by
  intro k
  induction k with
  | zero =>
    intro h
    show stepAt (F := Ideal) c ⟨0, h⟩ i1 i2 x1 x2 (hk ⟨0, h⟩).1 (hk ⟨0, h⟩).2 (k0_pay3 (F := Ideal)) (ix3 0 0 0) = _
    rw [stepAt_apply c ⟨0, h⟩ i1 i2 x1 x2 _ _ hr1 hr2, pay3_apply, zero_add, Fin.sum_univ_one]
    rfl
  | succ k ih =>
    intro h
    show stepAt (F := Ideal) c ⟨k + 1, h⟩ i1 i2 x1 x2 (hk ⟨k + 1, h⟩).1 (hk ⟨k + 1, h⟩).2
      (accA x1 x2 hk k (Nat.lt_of_succ_lt h)) (ix3 0 0 0) = _
    rw [stepAt_apply c ⟨k + 1, h⟩ i1 i2 x1 x2 _ _ hr1 hr2, ih]
    exact (Fin.sum_univ_castSucc (fun n : Fin (k + 1 + 1) => sampleTerm x1 x2 i1 i2 ⟨n.val, Nat.lt_of_lt_of_le n.isLt h⟩)).symm

/-- The one-element shape's only index. -/
theorem idx_one (j : S1x1x1.Idx) : j = ix3 0 0 0 := by
  funext a
  apply Fin.ext
  match a with
  | ⟨0, _⟩ => have h : (j 0).val < 1 := (j 0).isLt; show (j 0).val = 0; omega
  | ⟨1, _⟩ => have h : (j 1).val < 1 := (j 1).isLt; show (j 1).val = 0; omega
  | ⟨2, _⟩ => have h : (j 2).val < 1 := (j 2).isLt; show (j 2).val = 0; omega

/-- At the extended reals, what the last point stores to the output's block is the mean the specification states, of the
    two arrays' contents and the two tables' words. -/
theorem outV_value (c : Dev nD) (i1 : Bf (F := Ideal) c (Memref.whole main_arg2)) (i2 : Bf (F := Ideal) c (Memref.whole main_arg3))
    (x1 : Bf (F := Ideal) c (Memref.whole main_v0)) (x2 : Bf (F := Ideal) c (Memref.whole main_v1))
    (hk : Ok c i1 i2) (hr1 : Spec.InRange i1) (hr2 : Spec.InRange i2) :
    outV (F := Ideal) x1 x2 hk = fun _ => Spec.G x1 x2 i1 i2 := by
  funext j
  rw [idx_one j]
  unfold outV
  rw [pay2_apply, accA_apply c i1 i2 x1 x2 hk hr1 hr2 255 (by decide)]
  rfl

end Cert.Proof.KI

end
-- ==== Proof.RefValue.lean ====
import proofs.«404213_j10849087389931_2_alg».proof.Proof.Gen.ReferenceIdeal.Read
import proofs.«404213_j10849087389931_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.Proof.RefValue

open Cert.ReferenceIdeal Cert.ReferenceIdeal.Gen Cert.ReferenceIdeal.Read
open Idealize.ShloMosaic Idealize.ShloMosaic.TcCoe ValueIdx

/-- A table word below 65536 is non-negative as a signed word, so the index normalisation
    "if the word is negative add 65536, else keep it" keeps it. -/
theorem norm_word {w : BitVec 32} (h : w.toNat < 65536) :
    Scalar.select (IntOp.cmpi .slt w 0#32) (IntOp.addi w 65536#32) w = w := by
  have h0 : IntOp.cmpi .slt w 0#32 = 0#1 := by
    apply eq_zero_of_ne_one
    intro h1
    have := (StableHlo.Predicate.slt_iff_toNat (a := w) (b := 0#32) (by omega) (by decide)).1 h1
    simp at this
  rw [h0, select_zero]

/-- The gather's dimension numbers: operand `[4, 256, 65536]`, start indices `[256, 1]`, result `[4, 256, 256]`. -/
abbrev gd : GatherDims S4x256x65536 S256x1 S4x256x256 := gather_S4x256x65536_S256x1_S4x256x256_01_2_n_n_2_1_42561

/-- THE GATHER READ AT `(b, ch, n)`: the two offset axes carry `b` and `ch` through, and on the collapsed last axis the
    operand is read at start index `n`'s word, taken as a signed integer and clamped into `[0, 65535]`. -/
theorem gather_col {α : Type} (x : S4x256x65536.Idx → α) (idx : IVec S256x1 32) (b : Fin 4) (ch n : Fin 256) :
    Host.gather gd x idx (ix3 b ch n)
      = x (ix3 b ch ⟨min (idx (ix2 n (0 : Fin 1))).toInt.toNat 65535, by omega⟩) := by
  unfold Host.gather
  congr 1
  funext a
  refine Fin.ext ?_
  have hk0 : (0 : Fin 3) ∈ gd.sKept := (GatherDims.mem_sKept gd _).2 ⟨by decide, by decide⟩
  have hk1 : (1 : Fin 3) ∈ gd.sKept := (GatherDims.mem_sKept gd _).2 ⟨by decide, by decide⟩
  have hk2 : (2 : Fin 3) ∉ gd.sKept := fun h => ((GatherDims.mem_sKept gd _).1 h).1 (by decide)
  -- an offset coordinate read at a known position of the offset axes
  have key : ∀ (k : Nat) (hk : k < gd.offsetDims.length),
      (k = 0 → ((ix3 b ch n) (gd.offsetDims[k]'hk)).val = b.val) ∧ (k = 1 → ((ix3 b ch n) (gd.offsetDims[k]'hk)).val = ch.val) := by
    intro k hk
    exact ⟨fun h => by subst h; rfl, fun h => by subst h; rfl⟩
  -- the batch coordinate read at the one batch axis
  have keyb : ∀ (k : Nat) (hk : k < gd.batchDims.length), k = 0 → ((ix3 b ch n) (gd.batchDims[k]'hk)).val = n.val := by
    intro k hk h; subst h; rfl
  match a with
  | ⟨0, _⟩ =>
    show gd.start (ix3 b ch n) idx 0 + gd.batchCoord (ix3 b ch n) 0 + gd.offCoord (ix3 b ch n) 0 = b.val
    rw [GatherDims.batchCoord_eq_zero gd _ _ (by decide)]
    unfold GatherDims.start GatherDims.offCoord
    rw [dif_neg (by decide), dif_pos hk0, Nat.zero_add]
    exact (key _ _).1 (by decide)
  | ⟨1, _⟩ =>
    show gd.start (ix3 b ch n) idx 1 + gd.batchCoord (ix3 b ch n) 1 + gd.offCoord (ix3 b ch n) 1 = ch.val
    rw [GatherDims.batchCoord_eq_zero gd _ _ (by decide)]
    unfold GatherDims.start GatherDims.offCoord
    rw [dif_neg (by decide), dif_pos hk1, Nat.zero_add]
    exact (key _ _).2 (by decide)
  | ⟨2, _⟩ =>
    show gd.start (ix3 b ch n) idx 2 + gd.batchCoord (ix3 b ch n) 2 + gd.offCoord (ix3 b ch n) 2 = _
    rw [GatherDims.batchCoord_eq_zero gd _ _ (by decide), GatherDims.offCoord_eq_zero gd _ _ hk2]
    unfold GatherDims.start
    rw [dif_pos (show (2 : Fin 3) ∈ gd.startIndexMap by decide)]
    have hsi : gd.siIdx (ix3 b ch n) ⟨List.idxOf (2 : Fin 3) gd.startIndexMap,
        List.idxOf_lt_length_iff.2 (show (2 : Fin 3) ∈ gd.startIndexMap by decide)⟩ = ix2 n (0 : Fin 1) := by
      funext c
      refine Fin.ext ?_
      match c with
      | ⟨0, _⟩ =>
        unfold GatherDims.siIdx
        rw [dif_neg (by decide +revert)]
        unfold GatherDims.siCoord
        simp only [Fin.val_cast]
        exact keyb _ _ (by decide +revert)
      | ⟨1, _⟩ =>
        unfold GatherDims.siIdx
        rw [dif_pos (by decide +revert)]
        show List.idxOf (2 : Fin 3) gd.startIndexMap = 0
        decide
    rw [hsi]
    rfl

/-- With the start word below 65536 the gather's clamp changes nothing: the column read is the one the word names. -/
theorem gather_pos {α : Type} (X : S4x256x65536.Idx → α) (J : IVec S256x1 32) (i : S256.Idx → BitVec 32)
    (hr : Spec.InRange i) (hJ : ∀ n : Fin 256, J (ix2 n (0 : Fin 1)) = i (ix1 n)) (b : Fin 4) (ch n : Fin 256) :
    Host.gather gd X J (ix3 b ch n) = X (ix3 b ch (Spec.pos (i (ix1 n)))) := by
  rw [gather_col]
  have h := hr n
  have hp : (⟨min (J (ix2 n (0 : Fin 1))).toInt.toNat 65535, by omega⟩ : Fin 65536) = Spec.pos (i (ix1 n)) := by
    refine Fin.ext ?_
    rw [Spec.pos_val_of_lt h]
    show min (J (ix2 n (0 : Fin 1))).toInt.toNat 65535 = (i (ix1 n)).toNat
    rw [hJ, StableHlo.Predicate.toInt_eq_toNat_of_lt (by omega)]
    simp only [Int.toNat_natCast]
    omega
  rw [hp]

/-- The index normalisation as a function of the table: under `InRange` it returns the table. -/
theorem norm_fun (i c0 c1 : S256.Idx → BitVec 32) (hr : Spec.InRange i) (h0 : ∀ j, c0 j = 0#32) (h1 : ∀ j, c1 j = 65536#32) :
    select (cmpi .slt i c0) (addi i c1) i = i := by
  funext j
  obtain ⟨n, rfl⟩ : ∃ n, j = ix1 n := ⟨j 0, eq_ix1 j⟩
  show Scalar.select (IntOp.cmpi .slt (i (ix1 n)) (c0 (ix1 n))) (IntOp.addi (i (ix1 n)) (c1 (ix1 n))) (i (ix1 n)) = i (ix1 n)
  rw [h0, h1]
  exact norm_word (hr n)

/-- The four index normalisations of the program (one per gather), each the table itself under `InRange`. -/
theorem v6_eq (i : (⟨S256, .i32⟩ : BufTy).Contents (Elt Ideal)) (hr : Spec.InRange i) : val_main_v6 (F := Ideal) i = i :=
  norm_fun i _ _ hr (fun j => by rw [val_main_v2_apply, val_main_c_apply]) (fun j => by rw [val_main_v4_apply, val_main_c_0_apply])
theorem v13_eq (i : (⟨S256, .i32⟩ : BufTy).Contents (Elt Ideal)) (hr : Spec.InRange i) : val_main_v13 (F := Ideal) i = i :=
  norm_fun i _ _ hr (fun j => by rw [val_main_v9_apply, val_main_c_1_apply]) (fun j => by rw [val_main_v11_apply, val_main_c_2_apply])
theorem v20_eq (i : (⟨S256, .i32⟩ : BufTy).Contents (Elt Ideal)) (hr : Spec.InRange i) : val_main_v20 (F := Ideal) i = i :=
  norm_fun i _ _ hr (fun j => by rw [val_main_v16_apply, val_main_c_3_apply]) (fun j => by rw [val_main_v18_apply, val_main_c_4_apply])
theorem v27_eq (i : (⟨S256, .i32⟩ : BufTy).Contents (Elt Ideal)) (hr : Spec.InRange i) : val_main_v27 (F := Ideal) i = i :=
  norm_fun i _ _ hr (fun j => by rw [val_main_v23_apply, val_main_c_5_apply]) (fun j => by rw [val_main_v25_apply, val_main_c_6_apply])

/-- Row `n` of the start-index column reads entry `n` of the table. -/
theorem col_ix (n : Fin 256) : (fun a : Fin 1 => match a with | ⟨0, _⟩ => (⟨((ix2 n (0 : Fin 1) : S256x1.Idx) 0).val, ((ix2 n (0 : Fin 1) : S256x1.Idx) 0).isLt⟩ : Fin 256)) = (ix1 n : S256.Idx) := by
  funext a; match a with | ⟨0, _⟩ => rfl

/-- The four gathered arrays at `(b, ch, n)`: the flattened array's column at the position the table's word `n` names. -/
theorem v8_at (x0 : (⟨S4x256x256x256, .f32⟩ : BufTy).Contents (Elt Ideal)) (i : (⟨S256, .i32⟩ : BufTy).Contents (Elt Ideal))
    (hr : Spec.InRange i) (b : Fin 4) (ch n : Fin 256) :
    val_main_v8 (F := Ideal) x0 i (ix3 b ch n) = val_main_v0 (F := Ideal) x0 (ix3 b ch (Spec.pos (i (ix1 n)))) := by
  unfold val_main_v8
  exact gather_pos _ _ i hr (fun n => by rw [val_main_v7_apply, v6_eq i hr]; exact congrArg i (col_ix n)) b ch n

theorem v15_at (x0 : (⟨S4x256x256x256, .f32⟩ : BufTy).Contents (Elt Ideal)) (i : (⟨S256, .i32⟩ : BufTy).Contents (Elt Ideal))
    (hr : Spec.InRange i) (b : Fin 4) (ch n : Fin 256) :
    val_main_v15 (F := Ideal) x0 i (ix3 b ch n) = val_main_v0 (F := Ideal) x0 (ix3 b ch (Spec.pos (i (ix1 n)))) := by
  unfold val_main_v15
  exact gather_pos _ _ i hr (fun n => by rw [val_main_v14_apply, v13_eq i hr]; exact congrArg i (col_ix n)) b ch n

theorem v22_at (x1 : (⟨S4x256x256x256, .f32⟩ : BufTy).Contents (Elt Ideal)) (i : (⟨S256, .i32⟩ : BufTy).Contents (Elt Ideal))
    (hr : Spec.InRange i) (b : Fin 4) (ch n : Fin 256) :
    val_main_v22 (F := Ideal) x1 i (ix3 b ch n) = val_main_v1 (F := Ideal) x1 (ix3 b ch (Spec.pos (i (ix1 n)))) := by
  unfold val_main_v22
  exact gather_pos _ _ i hr (fun n => by rw [val_main_v21_apply, v20_eq i hr]; exact congrArg i (col_ix n)) b ch n

theorem v29_at (x1 : (⟨S4x256x256x256, .f32⟩ : BufTy).Contents (Elt Ideal)) (i : (⟨S256, .i32⟩ : BufTy).Contents (Elt Ideal))
    (hr : Spec.InRange i) (b : Fin 4) (ch n : Fin 256) :
    val_main_v29 (F := Ideal) x1 i (ix3 b ch n) = val_main_v1 (F := Ideal) x1 (ix3 b ch (Spec.pos (i (ix1 n)))) := by
  unfold val_main_v29
  exact gather_pos _ _ i hr (fun n => by rw [val_main_v28_apply, v27_eq i hr]; exact congrArg i (col_ix n)) b ch n

/-- A sum over the channel axis at row `(b, n)`, started from the zero word: when the summed array is, at `(b, ch, n)`,
    the product of the columns `p` and `q` of `X`, the sum is their channel-axis dot product. -/
theorem chan_sum (A : S4x256x256.Idx → EReal) (X : Spec.SF.Idx → EReal) (p q : Fin 65536) (b : Fin 4) (n : Fin 256)
    (hA : ∀ ch : Fin 256, A (ix3 b ch n) = X (ix3 b ch p) * X (ix3 b ch q)) :
    Ideal.ofBits .f32 0x00000000#32 + ∑ k : Fin 256, A (idx_main_v31 (ix2 b n) k) = Spec.dot3 X b p q := by
  rw [Ideal.ofBits_zero_f32, zero_add]
  unfold Spec.dot3
  refine Finset.sum_congr rfl fun k _ => ?_
  rw [← hA k]
  exact congrArg A (funext fun a => by match a with | ⟨0, _⟩ => rfl | ⟨1, _⟩ => rfl | ⟨2, _⟩ => rfl)

section
variable (x0 x1 : (⟨S4x256x256x256, .f32⟩ : BufTy).Contents (Elt Ideal)) (i1 i2 : (⟨S256, .i32⟩ : BufTy).Contents (Elt Ideal))
  (hr1 : Spec.InRange i1) (hr2 : Spec.InRange i2) (b : Fin 4) (n : Fin 256)
include hr1 hr2

/-- The first array's dot product of the two sampled columns. -/
theorem v31_at : val_main_v31 (F := Ideal) x0 i1 i2 (ix2 b n)
    = Spec.dot3 (val_main_v0 (F := Ideal) x0) b (Spec.pos (i1 (ix1 n))) (Spec.pos (i2 (ix1 n))) := by
  rw [val_main_v31_apply]
  exact chan_sum _ _ _ _ b n fun ch => by rw [val_main_v30_apply, v8_at x0 i1 hr1, v15_at x0 i2 hr2]; rfl

theorem v39_at : val_main_v39 (F := Ideal) x1 i1 i2 (ix2 b n)
    = Spec.dot3 (val_main_v1 (F := Ideal) x1) b (Spec.pos (i1 (ix1 n))) (Spec.pos (i2 (ix1 n))) := by
  rw [val_main_v39_apply]
  exact chan_sum _ _ _ _ b n fun ch => by rw [val_main_v38_apply, v22_at x1 i1 hr1, v29_at x1 i2 hr2]; rfl
end

section
variable (x0 x1 : (⟨S4x256x256x256, .f32⟩ : BufTy).Contents (Elt Ideal)) (i : (⟨S256, .i32⟩ : BufTy).Contents (Elt Ideal))
  (hr : Spec.InRange i) (b : Fin 4) (n : Fin 256)
include hr

/-- The four norms: the square root of a sampled column's dot product with itself. -/
theorem v32_at : val_main_v32 (F := Ideal) x0 i (ix2 b n)
    = Ideal.sqrt (Spec.dot3 (val_main_v0 (F := Ideal) x0) b (Spec.pos (i (ix1 n))) (Spec.pos (i (ix1 n)))) := by
  rw [val_main_v32_apply, Ideal.hostUnary_sqrt_def, val_main_call0_v1_apply]
  exact congrArg Ideal.sqrt (chan_sum _ _ _ _ b n fun ch => by rw [val_main_call0_v0_apply, v8_at x0 i hr]; rfl)

theorem v33_at : val_main_v33 (F := Ideal) x0 i (ix2 b n)
    = Ideal.sqrt (Spec.dot3 (val_main_v0 (F := Ideal) x0) b (Spec.pos (i (ix1 n))) (Spec.pos (i (ix1 n)))) := by
  rw [val_main_v33_apply, Ideal.hostUnary_sqrt_def, val_main_call1_v1_apply]
  exact congrArg Ideal.sqrt (chan_sum _ _ _ _ b n fun ch => by rw [val_main_call1_v0_apply, v15_at x0 i hr]; rfl)

theorem v40_at : val_main_v40 (F := Ideal) x1 i (ix2 b n)
    = Ideal.sqrt (Spec.dot3 (val_main_v1 (F := Ideal) x1) b (Spec.pos (i (ix1 n))) (Spec.pos (i (ix1 n)))) := by
  rw [val_main_v40_apply, Ideal.hostUnary_sqrt_def, val_main_call2_v1_apply]
  exact congrArg Ideal.sqrt (chan_sum _ _ _ _ b n fun ch => by rw [val_main_call2_v0_apply, v22_at x1 i hr]; rfl)

theorem v41_at : val_main_v41 (F := Ideal) x1 i (ix2 b n)
    = Ideal.sqrt (Spec.dot3 (val_main_v1 (F := Ideal) x1) b (Spec.pos (i (ix1 n))) (Spec.pos (i (ix1 n)))) := by
  rw [val_main_v41_apply, Ideal.hostUnary_sqrt_def, val_main_call3_v1_apply]
  exact congrArg Ideal.sqrt (chan_sum _ _ _ _ b n fun ch => by rw [val_main_call3_v0_apply, v29_at x1 i hr]; rfl)
end

section
variable (x0 x1 : (⟨S4x256x256x256, .f32⟩ : BufTy).Contents (Elt Ideal)) (i1 i2 : (⟨S256, .i32⟩ : BufTy).Contents (Elt Ideal))
  (hr1 : Spec.InRange i1) (hr2 : Spec.InRange i2) (b : Fin 4) (n : Fin 256)
include hr1 hr2

/-- Each array's cosine similarity of the two sampled columns. -/
theorem v37_at : val_main_v37 (F := Ideal) x0 i1 i2 (ix2 b n)
    = Spec.cosv (val_main_v0 (F := Ideal) x0) b (Spec.pos (i1 (ix1 n))) (Spec.pos (i2 (ix1 n))) := by
  rw [val_main_v37_apply, val_main_v36_apply, val_main_v34_apply, val_main_v35_apply, val_main_cst_7_apply,
    v31_at x0 i1 i2 hr1 hr2, v32_at x0 i1 hr1, v33_at x0 i2 hr2]
  rfl

theorem v45_at : val_main_v45 (F := Ideal) x1 i1 i2 (ix2 b n)
    = Spec.cosv (val_main_v1 (F := Ideal) x1) b (Spec.pos (i1 (ix1 n))) (Spec.pos (i2 (ix1 n))) := by
  rw [val_main_v45_apply, val_main_v44_apply, val_main_v42_apply, val_main_v43_apply, val_main_cst_9_apply,
    v39_at x1 i1 i2 hr1 hr2, v40_at x1 i1 hr1, v41_at x1 i2 hr2]
  rfl

/-- One pair's term: the absolute difference of the two similarities. -/
theorem v47_at : val_main_v47 (F := Ideal) x0 x1 i1 i2 (ix2 b n)
    = Spec.term (val_main_v0 (F := Ideal) x0) (val_main_v1 (F := Ideal) x1) b (Spec.pos (i1 (ix1 n))) (Spec.pos (i2 (ix1 n))) := by
  rw [val_main_v47_apply, val_main_v46_apply, v37_at x0 i1 i2 hr1 hr2, v45_at x1 i1 i2 hr1 hr2]
  rfl
end

/-- At the extended reals the reference's result, as a function of its four arguments, is the mean the specification
    states, of the two arguments flattened (the reference's own first two operations) and the two tables' words. -/
theorem ref_value (x0 x1 : (⟨S4x256x256x256, .f32⟩ : BufTy).Contents (Elt Ideal)) (i1 i2 : (⟨S256, .i32⟩ : BufTy).Contents (Elt Ideal))
    (hr1 : Spec.InRange i1) (hr2 : Spec.InRange i2) :
    val_main_v49 (F := Ideal) x0 x1 i1 i2 = fun _ => Spec.G (val_main_v0 (F := Ideal) x0) (val_main_v1 (F := Ideal) x1) i1 i2 := by
  funext j
  rw [val_main_v49_apply, val_main_v48_apply, val_main_cst_10_apply, val_main_cst_11_apply]
  show Ideal.div (Ideal.ofBits .f32 0x00000000#32 + ∑ j : S4x256.Idx, val_main_v47 (F := Ideal) x0 x1 i1 i2 j)
    (Ideal.ofBits .f32 0x44800000#32) = _
  unfold Spec.G Spec.cntV
  rw [Ideal.ofBits_zero_f32, zero_add, sum_idx2, Finset.sum_comm]
  refine congrArg (Ideal.div · _) (Finset.sum_congr rfl fun n _ => Finset.sum_congr rfl fun b _ => ?_)
  exact v47_at x0 x1 i1 i2 hr1 hr2 b n

end Cert.Proof.RefValue

end
-- ==== Proof.PreDecode.lean ====
import proofs.«404213_j10849087389931_2_alg».proof.Pre_finite_inputs
import proofs.«404213_j10849087389931_2_alg».proof.Proof.Gen.Pre_finite_inputs
import proofs.«404213_j10849087389931_2_alg».proof.Proof.Spec
import Idealize.ShloMosaic.Lib.ReduceAll
import Idealize.ShloMosaic.Lib.StableHlo.Predicate

noncomputable section

namespace Cert.Proof.PreDecode

open Idealize.ShloMosaic ValueIdx

/-- The scalar shape has no axes, so it has exactly one index: a reduction over all axes lands every element there. -/
instance subsingleton_scalar_idx : Subsingleton Cert.Pre_finite_inputs.S_.Idx :=
  ⟨fun a b => funext fun d => d.elim0⟩

/-- A 32-bit word `w` with `0 ≤ w` and `w < 65536`, both compared SIGNED, has unsigned value below 65536.
    The signed value of `w` is `w.toNat` when `w.toNat < 2³¹` and `w.toNat − 2³²` otherwise; the second case is negative,
    which `0 ≤ w` excludes, and in the first case the signed and unsigned values agree, so `w < 65536` reads as stated. -/
theorem toNat_lt_of_signed_range (w : BitVec 32) (h0 : IntOp.cmpi .sge w 0#32 = 1#1)
    (h1 : IntOp.cmpi .slt w 65536#32 = 1#1) : w.toNat < 65536 := by
  -- the two compares, by definition: `w ≥ 0` is `0 ≤ w`
  change BitVec.ofBool ((0#32 : BitVec 32).sle w) = 1#1 at h0
  change BitVec.ofBool (w.slt 65536#32) = 1#1 at h1
  rw [StableHlo.Predicate.ofBool_eq_one_iff] at h0 h1
  -- the two constants' signed values
  have e0 : (0#32 : BitVec 32).toInt = 0 := by decide
  have e1 : (65536#32 : BitVec 32).toInt = 65536 := by decide
  simp only [BitVec.sle, BitVec.slt, decide_eq_true_eq, e0, e1] at h0 h1
  -- the word's signed value, by cases on its top bit
  rw [BitVec.toInt_eq_toNat_cond] at h0 h1
  have hw := w.isLt
  split at h0 <;> omega

/-- The printed precondition, all ones, says of each table that every word is a pixel position, `0 ≤ w < 65536`. -/
theorem inRange_of_pre {F : FTy → Type} [FloatOps F] [hP : Cert.Pre_finite_inputs.Facts]
    (a0 a1 : FVec F Cert.Pre_finite_inputs.S4x256x256x256 .f32) (i1 i2 : IVec Cert.Pre_finite_inputs.S256 32)
    (h : Cert.Pre_finite_inputs.fn (F := F) a0 a1 i1 i2 = fun _ => 1#1) : Spec.InRange i1 ∧ Spec.InRange i2 := by
  -- the predicate at its one index is the conjunction ((A₀ ∧ A₁) ∧ T₁) ∧ T₂ of four `all`s: the two arrays' finiteness
  -- and the two tables' ranges
  have h' := congrFun h ValueIdx.ix0
  dsimp only [Cert.Pre_finite_inputs.fn, Cert.Pre_finite_inputs.fn_part1] at h'
  -- a conjunction of bits is 1 only if both are: keep the tables' conjuncts T₁ and T₂
  obtain ⟨h123, h4⟩ := IntOp.andi_eq_one.1 h'
  obtain ⟨-, h3⟩ := IntOp.andi_eq_one.1 h123
  -- an `all` that is 1 had a 1 at every element; element n of a table's mask is (w ≥ 0) ∧ (w < 65536) for its word w,
  -- each scalar constant broadcast reading as itself at every index
  refine ⟨fun n => ?_, fun n => ?_⟩
  · obtain ⟨p0, p1⟩ := IntOp.andi_eq_one.1 (Host.reduce_andi_all _ _ _ _ _ h3 (ix1 n))
    exact toNat_lt_of_signed_range _ p0 p1
  · obtain ⟨p0, p1⟩ := IntOp.andi_eq_one.1 (Host.reduce_andi_all _ _ _ _ _ h4 (ix1 n))
    exact toNat_lt_of_signed_range _ p0 p1

end Cert.Proof.PreDecode

end
-- ==== Proof.lean ====
/-
  The kernel gathers, for each of 256 samples, two pixel columns of each of two `[4, 256, 65536]` arrays by its own
  copies out of HBM (the pixel positions read from two prefetched tables), forms the two cosine similarities over the
  channel axis for each batch row, and accumulates the batch sum of their absolute difference in a one-element scratch
  over the grid, storing the total times `2⁻¹⁰` at the last point; the reference gathers all the columns at once and
  takes the mean of the same absolute differences over the `4 · 256` pairs. Over the extended reals the two agree:
  a sum does not depend on its order, and the product with `2⁻¹⁰` is the quotient by `1024`.

  The precondition's range conjunct, `0 ≤ idx < 65536` for both tables, is what makes the kernel's copies lie inside the
  arrays (the body's side conditions) and the reference's index normalisation and clamp the identity.

  The frames of the two kernel programs are the launch of `@main` as three segments (two reshapes, the region, one
  reshape); the reference's is its run; the idealization rewrote nothing.
-/
import proofs.«404213_j10849087389931_2_alg».proof.Defs
import proofs.«404213_j10849087389931_2_alg».proof.Proof.Gen.Kernel
import proofs.«404213_j10849087389931_2_alg».proof.Proof.Gen.KernelIdeal
import proofs.«404213_j10849087389931_2_alg».proof.Proof.Gen.ReferenceIdeal
import proofs.«404213_j10849087389931_2_alg».proof.Proof.Gen.ReferenceIdeal.Run
import proofs.«404213_j10849087389931_2_alg».proof.Proof.Gen.ReferenceIdeal.Read
import proofs.«404213_j10849087389931_2_alg».proof.Proof.Gen.Pre_finite_inputs
import proofs.«404213_j10849087389931_2_alg».proof.Proof.KLaunch
import proofs.«404213_j10849087389931_2_alg».proof.Proof.KOk
import proofs.«404213_j10849087389931_2_alg».proof.Proof.KILaunch
import proofs.«404213_j10849087389931_2_alg».proof.Proof.KIOk
import proofs.«404213_j10849087389931_2_alg».proof.Proof.KIFinal
import proofs.«404213_j10849087389931_2_alg».proof.Proof.KIValue
import proofs.«404213_j10849087389931_2_alg».proof.Proof.RefValue
import proofs.«404213_j10849087389931_2_alg».proof.Proof.PreDecode
import Idealize.ShloMosaic.Adequacy
import Idealize.ShloMosaic.Init

noncomputable section

namespace Cert.Proof

open Idealize.ShloMosaic Idealize.ShloMosaic.TcCoe Idealize.SL.Sem

/-! ## The body's side conditions from the precondition -/

/-- Under the precondition every table word of the word-level program names a column inside the arrays. -/
theorem okAll_K (m : (ℓ : Loc Cert.Kernel.nD Cert.Kernel.τ Cert.Kernel.sig) → Buf (Elt Bits) ℓ) (ρ : Dev Cert.Kernel.nD → PrngReg)
    (h : Cert.Pre_Kernel m) : K.OkAll m ρ := fun c => by
  obtain ⟨h1, h2⟩ := PreDecode.inRange_of_pre _ _ _ _ (h c)
  have e1 := K.Vr_keep m ρ c Cert.Kernel.main_arg2 (by decide) (by decide)
  have e2 := K.Vr_keep m ρ c Cert.Kernel.main_arg3 (by decide) (by decide)
  refine K.ok_of_inRange c _ _ ?_ ?_
  · show Spec.InRange (K.Vr m ρ c Cert.Kernel.main_arg2); rw [e1]; exact h1
  · show Spec.InRange (K.Vr m ρ c Cert.Kernel.main_arg3); rw [e2]; exact h2

/-- The same of the idealized program. -/
theorem okAll_KI (m : (ℓ : Loc Cert.KernelIdeal.nD Cert.KernelIdeal.τ Cert.KernelIdeal.sig) → Buf (Elt Ideal) ℓ) (ρ : Dev Cert.KernelIdeal.nD → PrngReg)
    (h : Cert.Pre_KernelIdeal m) : KI.OkAll m ρ := fun c => by
  obtain ⟨h1, h2⟩ := PreDecode.inRange_of_pre _ _ _ _ (h c)
  have e1 := KI.Vr_keep m ρ c Cert.KernelIdeal.main_arg2 (by decide) (by decide)
  have e2 := KI.Vr_keep m ρ c Cert.KernelIdeal.main_arg3 (by decide) (by decide)
  refine KI.ok_of_inRange c _ _ ?_ ?_
  · show Spec.InRange (KI.Vr m ρ c Cert.KernelIdeal.main_arg2); rw [e1]; exact h1
  · show Spec.InRange (KI.Vr m ρ c Cert.KernelIdeal.main_arg3); rw [e2]; exact h2

/-! ## The claims -/

theorem frame_k : Cert.frame_Kernel := fun m ρ hpre =>
  (θ_run Cert.Kernel.defs _ _).mono (fun _ h c => (h c).2) (K.run_main m ρ (okAll_K m ρ hpre))

theorem frame_ki : Cert.frame_KernelIdeal := fun m ρ hpre =>
  (θ_run Cert.KernelIdeal.defs _ _).mono (fun _ h c => (h c).2) (KI.run_main m ρ (okAll_KI m ρ hpre))

theorem frame_ri : Cert.frame_ReferenceIdeal := fun m ρ _ =>
  (θ_run Cert.ReferenceIdeal.defs _ _).mono (fun _ h c => (h c).2) (Cert.ReferenceIdeal.Value.run (F := Ideal) m ρ)

/-- At the extended reals the kernel's scalar result and the reference's are the same mean, of arguments that agree. -/
theorem algebraic : Cert.algebraic_KernelIdeal_ReferenceIdeal := by
  intro m ρ m' ρ' hpre hagree
  have hOk := okAll_KI m ρ hpre
  refine ⟨fun c => KI.V3 m ρ hOk c (Proc.devRef .tc Cert.KernelIdeal.main_v3), KI.run_main m ρ hOk, ?_⟩
  refine (θ_run Cert.ReferenceIdeal.defs _ _).mono (fun _ h c => ⟨(h c).1.trans ?_, (h c).2⟩)
    (Cert.ReferenceIdeal.Value.run (F := Ideal) m' ρ')
  obtain ⟨hr1, hr2⟩ := PreDecode.inRange_of_pre _ _ _ _ (hpre c)
  have e1 := KI.Vr_keep m ρ c Cert.KernelIdeal.main_arg2 (by decide) (by decide)
  have e2 := KI.Vr_keep m ρ c Cert.KernelIdeal.main_arg3 (by decide) (by decide)
  -- the reference's result: the mean, of the flattened arguments and the tables
  rw [Cert.ReferenceIdeal.Read.val_main_v49_eq, (hagree c).1, (hagree c).2.1, (hagree c).2.2.1, (hagree c).2.2.2,
    RefValue.ref_value _ _ _ _ hr1 hr2]
  -- the kernel's: the reshape of what the last point stored, which is the same mean
  show _ = KI.V3 m ρ hOk c (Proc.devRef .tc Cert.KernelIdeal.main_v3)
  rw [KI.V3_out, KI.Aout_eq,
    KI.outV_value c _ _ _ _ (hOk c) (by show Spec.InRange (KI.Vr m ρ c Cert.KernelIdeal.main_arg2); rw [e1]; exact hr1)
      (by show Spec.InRange (KI.Vr m ρ c Cert.KernelIdeal.main_arg3); rw [e2]; exact hr2)]
  show _ = shapeCast Cert.KernelIdeal.S_ (fun _ => Spec.G (KI.Vr m ρ c Cert.KernelIdeal.main_v0) (KI.Vr m ρ c Cert.KernelIdeal.main_v1)
    (KI.Vr m ρ c Cert.KernelIdeal.main_arg2) (KI.Vr m ρ c Cert.KernelIdeal.main_arg3)) _
  rw [KI.Vr_v0, KI.Vr_v1, e1, e2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
